-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S50000x32x1 : Shape := ⟨3, ![50000, 32, 1]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S50000x32x1 : S_.BroadcastsInDim S50000x32x1 (![] : Fin 0 → Fin S50000x32x1.rank)
  reducesTo_S50000x32x1_S_d0_1_2 : S50000x32x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S50000x32x128 .f32) (main_arg2 : FVec F S50000x32x1 .f32) (main_arg3 : FVec F S128x128 .f32) (main_arg4 : FVec F S128 .f32) (main_arg5 : FVec F S128x256 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S50000x32x1 .f32 := Host.absf main_arg2
  let main_cst_2 : FVec F S_ .f32 := constant S_ .f32 0x7F800000#32
  let main_v10 : FVec F S50000x32x1 .f32 := broadcastInDim S50000x32x1 ![] bcast_S_S50000x32x1 main_cst_2
  let main_v11 : IVec S50000x32x1 1 := cmpf .olt main_v9 main_v10
  let main_c_3 : IVec S_ 1 := constantI S_ 1 1#1
  let main_v12 : IVec S_ 1 := (fun x v => Host.reduce IntOp.andi x v reducesTo_S50000x32x1_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S50000x32x128 : Shape := ⟨3, ![50000, 32, 128]⟩
abbrev S50000x32x1 : Shape := ⟨3, ![50000, 32, 1]⟩
abbrev S128x128 : Shape := ⟨2, ![128, 128]⟩
abbrev S128 : Shape := ⟨1, ![128]⟩
abbrev S128x256 : Shape := ⟨2, ![128, 256]⟩
abbrev S50000x32 : Shape := ⟨2, ![50000, 32]⟩
abbrev S400x128 : Shape := ⟨2, ![400, 128]⟩
abbrev S400x32x128 : Shape := ⟨3, ![400, 32, 128]⟩
abbrev S400x32 : Shape := ⟨2, ![400, 32]⟩
abbrev S12800x128 : Shape := ⟨2, ![12800, 128]⟩
abbrev S1x128 : Shape := ⟨2, ![1, 128]⟩
abbrev S400x32x1 : Shape := ⟨3, ![400, 32, 1]⟩
abbrev S400 : Shape := ⟨1, ![400]⟩
abbrev S400x1 : Shape := ⟨2, ![400, 1]⟩
abbrev S400x256 : Shape := ⟨2, ![400, 256]⟩
abbrev S256x128 : Shape := ⟨2, ![256, 128]⟩

abbrev nBuf : Space → Nat
  | .hbm => 9
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x32x1, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S50000x32, .f32⟩
  | .hbm, ⟨8, _⟩ => ⟨S50000x128, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S400x32, .f32⟩
  | .local _ .vmem, ⟨5, _⟩ => ⟨S400x32, .f32⟩
  | .local _ .vmem, ⟨6, _⟩ => ⟨S128x128, .f32⟩
  | .local _ .vmem, ⟨7, _⟩ => ⟨S128, .f32⟩
  | .local _ .vmem, ⟨8, _⟩ => ⟨S128x256, .f32⟩
  | .local _ .vmem, ⟨9, _⟩ => ⟨S128, .f32⟩
  | .local _ .vmem, ⟨10, _⟩ => ⟨S400x128, .f32⟩
  | .local _ .vmem, ⟨11, _⟩ => ⟨S400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S50000x32x1_S50000x32 : S50000x32x1.ShapeCasts S50000x32
  inb_S400x32x128_S400x32x128_0_0_0 : ∀ a, (![0, 0, 0] : Fin 3 → Nat) a + S400x32x128.size a ≤ S400x32x128.size a
  h_S400x32x128 : 0 < S400x32x128.numel
  shapeCasts_S400x32x128_S12800x128 : S400x32x128.ShapeCasts S12800x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S12800x128 : S1x128.Broadcasts S12800x128
  shapeCasts_S12800x128_S400x32x128 : S12800x128.ShapeCasts S400x32x128
  inb_S400x32_S400x32_0_0 : ∀ a, (![0, 0] : Fin 2 → Nat) a + S400x32.size a ≤ S400x32.size a
  h_S400x32 : 0 < S400x32.numel
  shapeCasts_S400x32_S400x32 : S400x32.ShapeCasts S400x32
  shapeCasts_S400x32_S400x32x1 : S400x32.ShapeCasts S400x32x1
  broadcasts_S400x32x1_S400x32x128 : S400x32x1.Broadcasts S400x32x128
  reduces_S400x32x128_S400x128 : S400x32x128.Reduces [1] S400x128
  reduces_S400x32_S400 : S400x32.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  concatenates_S400x128_S400x128_S400x256_d1 : Shape.Concatenates [S400x128, S400x128] S400x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S400x128 : S1x128.Broadcasts S400x128
  reduces_S400x128_S400 : S400x128.Reduces [1] S400
  dot_S12800x128_S128x128_S12800x128_1_0_0_1_n_n_wf : DotDims.WF S12800x128 S128x128 S12800x128 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S50000x128.size a
  hwx0_0 : ∀ i : grid0.Coords, EltTy.bits .f32 = 32 ∨ (Rect.block (s := S50000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S50000x32x128.size a
  hwx0_1 : ∀ i : grid0.Coords, EltTy.bits .f32 = 32 ∨ (Rect.block (s := S50000x32x128) S400x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32.size a ≤ S50000x32.size a
  hwx0_2 : ∀ i : grid0.Coords, EltTy.bits .f32 = 32 ∨ (Rect.block (s := S50000x32) S400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S50000x128.size a
  hwx0_7 : ∀ i : grid0.Coords, EltTy.bits .f32 = 32 ∨ (Rect.block (s := S50000x128) S400x128.size (cc0_transform_7 i) (hinb0_7 i)).WholeWords (EltTy.packing .f32)

variable [Facts₀]

def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S50000x32x1 : Shape := ⟨3, ![50000, 32, 1]⟩
abbrev S128x128 : Shape := ⟨2, ![128, 128]⟩
abbrev S128 : Shape := ⟨1, ![128]⟩
abbrev S128x256 : Shape := ⟨2, ![128, 256]⟩
abbrev S1x1x128 : Shape := ⟨3, ![1, 1, 128]⟩
abbrev S_ : Shape := ⟨0, ![]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩
abbrev S50000 : Shape := ⟨1, ![50000]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x32x1, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S50000x32x128, .f32⟩
  | .hbm, ⟨8, _⟩ => ⟨S1x1x128, .f32⟩
  | .hbm, ⟨9, _⟩ => ⟨S50000x32x128, .f32⟩
  | .hbm, ⟨10, _⟩ => ⟨S50000x32x128, .f32⟩
  | .hbm, ⟨11, _⟩ => ⟨S_, .f32⟩
  | .hbm, ⟨12, _⟩ => ⟨S_, .f32⟩
  | .hbm, ⟨13, _⟩ => ⟨S50000x32x128, .f32⟩
  | .hbm, ⟨14, _⟩ => ⟨S50000x32x128, .i1⟩
  | .hbm, ⟨15, _⟩ => ⟨S_, .f32⟩
  | .hbm, ⟨16, _⟩ => ⟨S50000x32x128, .f32⟩
  | .hbm, ⟨17, _⟩ => ⟨S50000x32x128, .f32⟩
  | .hbm, ⟨18, _⟩ => ⟨S50000x32x128, .f32⟩
  | .hbm, ⟨19, _⟩ => ⟨S50000x32x128, .f32⟩
  | .hbm, ⟨20, _⟩ => ⟨S50000x32x128, .f32⟩
  | .hbm, ⟨21, _⟩ => ⟨S_, .f32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S256x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .f32⟩
  | .hbm, ⟨42, _⟩ => ⟨S50000x128, .i1⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000, .f32⟩
  | .hbm, ⟨50, _⟩ => ⟨S50000x1, .f32⟩
  | .hbm, ⟨51, _⟩ => ⟨S50000x1, .f32⟩
  | .hbm, ⟨52, _⟩ => ⟨S_, .f32⟩
  | .hbm, ⟨53, _⟩ => ⟨S50000x1, .f32⟩
  | .hbm, ⟨54, _⟩ => ⟨S50000x1, .i1⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x128, .f32⟩
  | .hbm, ⟨59, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_call2_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v21 : Ref sig .tc := ⟨.hbm, 46, rfl⟩
abbrev main_call3_v0 : Ref sig .tc := ⟨.hbm, 47, rfl⟩
abbrev main_call3_cst : Ref sig .tc := ⟨.hbm, 48, rfl⟩
abbrev main_call3_v1 : Ref sig .tc := ⟨.hbm, 49, rfl⟩
abbrev main_call3_v2 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  bcast_S_S50000x32x128 : S_.BroadcastsInDim S50000x32x128 (![] : Fin 0 → Fin S50000x32x128.rank)
  bcast_S50000x32x1_S50000x32x128_0_1_2 : S50000x32x1.BroadcastsInDim S50000x32x128 (![0, 1, 2] : Fin 3 → Fin S50000x32x128.rank)
  reducesTo_S50000x32x128_S50000x128_d1 : S50000x32x128.ReducesTo [1] S50000x128
  h_S_ : 0 < S_.numel
  reducesTo_S50000x32x1_S50000x1_d1 : S50000x32x1.ReducesTo [1] S50000x1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  bcast_S50000_S50000x1_0 : S50000.BroadcastsInDim S50000x1 (![0] : Fin 1 → Fin S50000x1.rank)
  dot_S50000x32x128_S128x128_S50000x32x128_2_1_01_0_n_n_wf : DotDims.WF S50000x32x128 S128x128 S50000x32x128 [2] [1] [0, 1] [0] [] []
  dot_S50000x256_S256x128_S50000x128_1_0_0_1_n_n_wf : DotDims.WF S50000x256 S256x128 S50000x128 [1] [0] [0] [1] [] []

variable [Facts₀]

def dot_S50000x32x128_S128x128_S50000x32x128_2_1_01_0_n_n : DotDims S50000x32x128 S128x128 S50000x32x128 where
  lhsContracting := [2]
  rhsContracting := [1]
  lhsNonContracting := [0, 1]
  rhsNonContracting := [0]
  lhsBatch := []
  rhsBatch := []
  wf := dot_S50000x32x128_S128x128_S50000x32x128_2_1_01_0_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelTerms.lean ====
/-
  The kernel body's value before the last bias, cut in two stages: the weighted average of the neighbours' hidden
  rows over one block of 400 nodes (`blockPooled`), and the second linear map of the joined rows (`blockMixed`).
  Together they are the body's first payload, by unfolding.
-/
import proofs.«135298_j88441966559451_1_alg».proof.Proof.Gen.KernelIdeal.Skeleton

noncomputable section

namespace Cert.KernelIdeal.Block

open Cert.KernelIdeal Cert.KernelIdeal.Gen Idealize.ShloMosaic Idealize.SL.Sem

variable {F : FTy → Type} [FloatOps F]

/-- The body's values %1 to %30 of a block's neighbour rows `v0`, first weight `v3`, first bias `v7` and
    neighbour weights `v17`: the pooled rows of the block's 400 nodes. -/
def blockPooled (v0 : Vec F S400x32x128 .f32) (v3 : Vec F S128x128 .f32) (v7 : Vec F S128 .f32)
    (v17 : Vec F S400x32 .f32) : FVec F S400x128 .f32 :=
  have v1 : FVec F S12800x128 .f32 := shapeCast S12800x128 v0 shapeCasts_S400x32x128_S12800x128
  have v2 : FVec F S12800x128 .bf16 := truncf .bf16 v1 bitsLt_bf16_f32
  have v4 : FVec F S128x128 .bf16 := truncf .bf16 v3 bitsLt_bf16_f32
  have v5 : FVec F S128x128 .bf16 := transpose S128x128 [1, 0] v4 transposes_S128x128_p1_0_S128x128
  have cst : FVec F S12800x128 .f32 := constant S12800x128 .f32 0x00000000#32
  have v6 : FVec F S12800x128 .f32 := matmul dot_S12800x128_S128x128_S12800x128_1_0_0_1_n_n none v2 v5 cst
  have v8 : FVec F S1x128 .f32 := shapeCast S1x128 v7 shapeCasts_S128_S1x128
  have v9 : FVec F S12800x128 .f32 := broadcastTo S12800x128 v8 broadcasts_S1x128_S12800x128
  have v10 : FVec F S12800x128 .f32 := addf v6 v9
  have cst_5 : F .f32 := Scalar.ofBits .f32 0x3C23D70A#32
  have cst_6 : F .f32 := Scalar.ofBits .f32 0x00000000#32
  have v11 : FVec F S12800x128 .f32 := broadcast S12800x128 cst_6
  have v12 : IVec S12800x128 1 := cmpf .oge v10 v11
  have v13 : FVec F S12800x128 .f32 := broadcast S12800x128 cst_5
  have v14 : FVec F S12800x128 .f32 := mulf v13 v10
  have v15 : FVec F S12800x128 .f32 := select v12 v10 v14
  have v16 : FVec F S400x32x128 .f32 := shapeCast S400x32x128 v15 shapeCasts_S12800x128_S400x32x128
  have v18 : FVec F S400x32 .f32 := shapeCast S400x32 v17 shapeCasts_S400x32_S400x32
  have v19 : FVec F S400x32x1 .f32 := shapeCast S400x32x1 v18 shapeCasts_S400x32_S400x32x1
  have v20 : FVec F S400x32x128 .f32 := broadcastTo S400x32x128 v19 broadcasts_S400x32x1_S400x32x128
  have v21 : FVec F S400x32x128 .f32 := mulf v20 v16
  have v22 : FVec F S400x128 .f32 := multiReduction .add [1] S400x128 v21 0x00000000#32 reduces_S400x32x128_S400x128 (.inl rfl) rfl
  have v23 : FVec F S400 .f32 := multiReduction .add [1] S400 v18 0x00000000#32 reduces_S400x32_S400 (.inl rfl) rfl
  have v24 : FVec F S400x1 .f32 := shapeCast S400x1 v23 shapeCasts_S400_S400x1
  have cst_11 : F .f32 := Scalar.ofBits .f32 0x00000000#32
  have v25 : FVec F S400x1 .f32 := broadcast S400x1 cst_11
  have v26 : IVec S400x1 1 := cmpf .oeq v24 v25
  have cst_12 : F .f32 := Scalar.ofBits .f32 0x3F800000#32
  have v27 : FVec F S400x1 .f32 := broadcast S400x1 cst_12
  have v28 : FVec F S400x1 .f32 := select v26 v27 v24
  have v29 : FVec F S400x128 .f32 := broadcastTo S400x128 v28 broadcasts_S400x1_S400x128
  have v30 : FVec F S400x128 .f32 := divf v22 v29
  v30

/-- The body's values %32 to %37 of the pooled rows `v30`, the block's own rows `v31` and the second weight
    `v33`: the joined rows against the transposed weight, before the bias. -/
def blockMixed (v30 : FVec F S400x128 .f32) (v31 : Vec F S400x128 .f32) (v33 : Vec F S128x256 .f32) :
    FVec F S400x128 .f32 :=
  have v32 : FVec F S400x256 .f32 := concatenate S400x256 1 [⟨S400x128, v31⟩, ⟨S400x128, v30⟩] concatenates_S400x128_S400x128_S400x256_d1
  have v34 : FVec F S128x256 .bf16 := truncf .bf16 v33 bitsLt_bf16_f32
  have v35 : FVec F S400x256 .bf16 := truncf .bf16 v32 bitsLt_bf16_f32
  have v36 : FVec F S256x128 .bf16 := transpose S256x128 [1, 0] v34 transposes_S128x256_p1_0_S256x128
  have cst_17 : FVec F S400x128 .f32 := constant S400x128 .f32 0x00000000#32
  have v37 : FVec F S400x128 .f32 := matmul dot_S400x256_S256x128_S400x128_1_0_0_1_n_n none v35 v36 cst_17
  v37

/-- The body's first payload is the two stages composed. -/
theorem pay2_eq (v0 : Vec F S400x32x128 .f32) (v3 : Vec F S128x128 .f32) (v7 : Vec F S128 .f32)
    (v17 : Vec F S400x32 .f32) (v31 : Vec F S400x128 .f32) (v33 : Vec F S128x256 .f32) :
    k0_pay2 v0 v3 v7 v17 v31 v33 = blockMixed (blockPooled v0 v3 v7 v17) v31 v33 := rfl

end Cert.KernelIdeal.Block

end
-- ==== Proof.NodeLayer.lean ====
/-
  One node of a neighbourhood-aggregation layer, over the extended reals.

  A node has its own feature row `self` (128 entries), 32 neighbours with feature rows `nb k` (128 entries each)
  and weights `al k`. Each neighbour row goes through an affine map (`wq`, `bq`) and a leaky rectifier; the
  results are averaged with the weights `al` (the weighted sum divided by the sum of the weights, a zero sum
  replaced by one); the node's own row and that average are laid side by side (256 entries), go through a second
  affine map (`ww`, `bw`) and the rectifier, and the resulting row is divided by its Euclidean norm (a zero norm
  replaced by one). Sums are plain finite sums: no order and no grouping is left in them.
-/
import Idealize.ShloMosaic.PureOps.Ideal

noncomputable section

namespace Cert.NodeLayer

open Idealize.ShloMosaic

/-- The leaky rectifier: `x` where `x ≥ 0`, else the slope (the binary value of the f32 nearest 0.01) times `x`. -/
def leaky (x : EReal) : EReal :=
  Scalar.select (Ideal.cmp .oge x (Ideal.ofBits .f32 0x00000000#32)) x (Ideal.ofBits .f32 0x3C23D70A#32 * x)

/-- A divisor made safe: one where it is zero, else itself. -/
def safeDen (s : EReal) : EReal :=
  Scalar.select (Ideal.cmp .oeq s (Ideal.ofBits .f32 0x00000000#32)) (Ideal.ofBits .f32 0x3F800000#32) s

/-- Neighbour `k`'s hidden row at `h`: the rectifier of the affine map of its feature row. -/
def hidden (nb : Fin 32 → Fin 128 → EReal) (wq : Fin 128 → Fin 128 → EReal) (bq : Fin 128 → EReal)
    (k : Fin 32) (h : Fin 128) : EReal :=
  leaky ((∑ i : Fin 128, nb k i * wq h i) + bq h)

/-- The weighted average of the neighbours' hidden rows at `h`. -/
def pooled (al : Fin 32 → EReal) (nb : Fin 32 → Fin 128 → EReal) (wq : Fin 128 → Fin 128 → EReal)
    (bq : Fin 128 → EReal) (h : Fin 128) : EReal :=
  Ideal.div (∑ k : Fin 32, al k * hidden nb wq bq k h) (safeDen (∑ k : Fin 32, al k))

/-- The node's own row followed by the pooled row. -/
def joined (self pool : Fin 128 → EReal) (j : Fin 256) : EReal :=
  if h : j.val < 128 then self ⟨j.val, h⟩ else pool ⟨j.val - 128, by have := j.isLt; omega⟩

/-- The second linear map, before its bias: row `o` of `ww` against the joined row. -/
def mixed (x : Fin 256 → EReal) (ww : Fin 128 → Fin 256 → EReal) (o : Fin 128) : EReal :=
  ∑ j : Fin 256, x j * ww o j

/-- Bias, then the rectifier. -/
def activated (z bw : Fin 128 → EReal) (o : Fin 128) : EReal := leaky (z o + bw o)

/-- The activated row divided by its Euclidean norm, a zero norm replaced by one. -/
def normalized (z bw : Fin 128 → EReal) (o : Fin 128) : EReal :=
  Ideal.div (activated z bw o) (safeDen (Ideal.sqrt (∑ o' : Fin 128, activated z bw o' * activated z bw o')))

/-- The layer's output row for one node. -/
def out (self : Fin 128 → EReal) (nb : Fin 32 → Fin 128 → EReal) (al : Fin 32 → EReal)
    (wq : Fin 128 → Fin 128 → EReal) (bq : Fin 128 → EReal) (ww : Fin 128 → Fin 256 → EReal)
    (bw : Fin 128 → EReal) (o : Fin 128) : EReal :=
  normalized (mixed (joined self (pooled al nb wq bq)) ww) bw o

end Cert.NodeLayer

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KernelPooled.lean ====
/-
  The kernel body's first stage read at one entry: the pooled row of a node.

  The stage lays the block's 400 × 32 neighbour rows out as 12800 rows, applies the first affine map and the leaky
  rectifier to all of them at once, lays the result back out as 400 × 32 rows, weights each row, sums over the 32
  neighbours and divides by the safe sum of the weights. Read at node `p` and column `h` every step is a reading
  of its operand at an index: row `32·p + k` of the flat layout is neighbour `k` of node `p`, the product against
  the transposed weight is the plain sum over the 128 features, the bias row and the weight lanes are repeats, and
  the two reductions are plain finite sums. What is left is the specification's `pooled`.
-/
import proofs.«135298_j88441966559451_1_alg».proof.Proof.KernelTerms
import proofs.«135298_j88441966559451_1_alg».proof.Proof.NodeLayer
import proofs.«135298_j88441966559451_1_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Block

open Cert.KernelIdeal Cert.KernelIdeal.Gen Idealize.ShloMosaic Idealize.ShloMosaic.ValueIdx

namespace Pooled

variable {α : Type}

/-- Row `32·p + k` of the block laid out as 12800 rows: neighbour `k` of node `p`. -/
def flatRow (p : Fin 400) (k : Fin 32) : Fin 12800 := ⟨32 * p.val + k.val, by omega⟩

/-- The block [400, 32, 128] laid out as [12800, 128] reads, at row `32·p + k`, neighbour `k` of node `p`. -/
theorem flatten_apply (x : S400x32x128.Idx → α) (hc : S400x32x128.ShapeCasts S12800x128)
    (p : Fin 400) (k : Fin 32) (i : Fin 128) :
    shapeCast S12800x128 x hc (ix2 (flatRow p k) i) = x (ix3 p k i) :=
  shapeCast_apply x hc _ _ (by
    rw [Shape.rowMajor_val_three, Shape.rowMajor_val_two]
    show (p.val * 32 + k.val) * 128 + i.val = (32 * p.val + k.val) * 128 + i.val
    omega)

/-- And back: [12800, 128] laid out as [400, 32, 128] reads, at (p, k, i), row `32·p + k`. -/
theorem unflatten_apply (y : S12800x128.Idx → α) (hc : S12800x128.ShapeCasts S400x32x128)
    (p : Fin 400) (k : Fin 32) (i : Fin 128) :
    shapeCast S400x32x128 y hc (ix3 p k i) = y (ix2 (flatRow p k) i) :=
  shapeCast_apply y hc _ _ (by
    rw [Shape.rowMajor_val_three, Shape.rowMajor_val_two]
    show (32 * p.val + k.val) * 128 + i.val = (p.val * 32 + k.val) * 128 + i.val
    omega)

/-- The bias [128] as a row [1, 128] repeated down 12800 rows reads the bias at the column. -/
theorem bias_rows_apply (v : S128.Idx → α) (h₁ : S128.ShapeCasts S1x128) (h₂ : S1x128.Broadcasts S12800x128)
    (r : Fin 12800) (h : Fin 128) :
    broadcastTo S12800x128 (shapeCast S1x128 v h₁) h₂ (ix2 r h) = v (ix1 h) :=
  (broadcastTo_1b_ab_apply _ h₂ r h).trans (shapeCast_a_1a_apply v h₁ (0 : Fin 1) h)

/-- The weights [400, 32] with a unit axis appended and repeated along it 128 times read, at (p, k, h), the weight
    at (p, k). -/
theorem weights_lanes_apply (w : S400x32.Idx → α) (h₀ : S400x32.ShapeCasts S400x32) (h₁ : S400x32.ShapeCasts S400x32x1)
    (h₂ : S400x32x1.Broadcasts S400x32x128) (p : Fin 400) (k : Fin 32) (h : Fin 128) :
    broadcastTo S400x32x128 (shapeCast S400x32x1 (shapeCast S400x32 w h₀) h₁) h₂ (ix3 p k h) = w (ix2 p k) := by
  rw [shapeCast_self w h₀]
  refine (broadcastTo_apply _ h₂ (ix3 p k h) (ix3 p k (0 : Fin 1)) fun ax => ?_).trans
    (shapeCast_apply w h₁ _ _ ?_)
  · match ax with
    | ⟨0, _⟩ => rfl
    | ⟨1, _⟩ => rfl
    | ⟨2, _⟩ => rfl
  · rw [Shape.rowMajor_val_three, Shape.rowMajor_val_two]
    show p.val * 32 + k.val = (p.val * 32 + k.val) * 1 + 0
    omega

/-- At the ideal values the sum over the neighbours' axis of a [400, 32, 128] array, read at (p, h), is the plain sum
    over the 32 neighbours. -/
theorem neighbour_sum_apply (x : FVec Ideal S400x32x128 .f32) (hr : S400x32x128.Reduces [1] S400x128)
    (hφ : FKind.Formats .f32) (hacc : (0x00000000#32 : BitVec (FTy.bits .f32)) = FKind.add.neutral .f32 hφ)
    (p : Fin 400) (h : Fin 128) :
    multiReduction (F := Ideal) .add [1] S400x128 x 0x00000000#32 hr hφ hacc (ix2 p h) = ∑ k : Fin 32, x (ix3 p k h) :=
  (Ideal.multiReduction_add_single x _ hr hφ hacc (ix2 p h)).trans
    (Finset.sum_congr rfl fun k _ => congrArg x
      (funext fun ax => Fin.ext (by match ax with | ⟨0, _⟩ => rfl | ⟨1, _⟩ => rfl | ⟨2, _⟩ => rfl)))

/-- The column [400, 1] of a vector [400], made safe (one where it is zero) and repeated across 128 columns, reads at
    (p, h) the safe value of the vector at p. -/
theorem safe_column_apply (s : FVec Ideal S400 .f32) (h₁ : S400.ShapeCasts S400x1) (h₂ : S400x1.Broadcasts S400x128)
    (p : Fin 400) (h : Fin 128) :
    broadcastTo S400x128
        (select (cmpf .oeq (shapeCast S400x1 s h₁) (broadcast S400x1 (Scalar.ofBits .f32 0x00000000#32)))
          (broadcast S400x1 (Scalar.ofBits .f32 0x3F800000#32)) (shapeCast S400x1 s h₁))
        h₂ (ix2 p h)
      = Cert.NodeLayer.safeDen (s (ix1 p)) := by
  have hs : shapeCast S400x1 s h₁ (ix2 p (0 : Fin 1)) = s (ix1 p) := shapeCast_apply s h₁ _ _ (by
    rw [Shape.rowMajor_val_one, Shape.rowMajor_val_two]
    show p.val = p.val * 1 + 0
    omega)
  refine (broadcastTo_apply _ h₂ (ix2 p h) (ix2 p (0 : Fin 1)) fun ax => ?_).trans ?_
  · match ax with
    | ⟨0, _⟩ => rfl
    | ⟨1, _⟩ => rfl
  · rw [select_apply, cmpf_apply, broadcast_apply, broadcast_apply, hs]
    rfl

/-- The left operand's index at output (r, c) and contraction position q: row r … -/
theorem dotLeft_0 (i : S12800x128.Idx) (q : dot_S12800x128_S128x128_S12800x128_1_0_0_1_n_n.contr.Idx) :
    (dot_S12800x128_S128x128_S12800x128_1_0_0_1_n_n.lhsIdx i q 0).val = (i 0).val := by
  unfold DotDims.lhsIdx
  rw [dif_neg (show ¬(0 : Fin S12800x128.rank) ∈ dot_S12800x128_S128x128_S12800x128_1_0_0_1_n_n.lhsBatch by decide),
    dif_pos (show (0 : Fin S12800x128.rank) ∈ dot_S12800x128_S128x128_S12800x128_1_0_0_1_n_n.lhsNonContracting by decide)]
  rfl

/-- … and column q. -/
theorem dotLeft_1 (i : S12800x128.Idx) (q : dot_S12800x128_S128x128_S12800x128_1_0_0_1_n_n.contr.Idx) :
    (dot_S12800x128_S128x128_S12800x128_1_0_0_1_n_n.lhsIdx i q 1).val = (q ⟨0, by decide⟩).val :=
  dot_S12800x128_S128x128_S12800x128_1_0_0_1_n_n.lhsIdx_val_of_single rfl i q

/-- The right operand's index there: row q … -/
theorem dotRight_0 (i : S12800x128.Idx) (q : dot_S12800x128_S128x128_S12800x128_1_0_0_1_n_n.contr.Idx) :
    (dot_S12800x128_S128x128_S12800x128_1_0_0_1_n_n.rhsIdx i q 0).val = (q ⟨0, by decide⟩).val :=
  dot_S12800x128_S128x128_S12800x128_1_0_0_1_n_n.rhsIdx_val_of_single rfl i q

/-- … and column c. -/
theorem dotRight_1 (i : S12800x128.Idx) (q : dot_S12800x128_S128x128_S12800x128_1_0_0_1_n_n.contr.Idx) :
    (dot_S12800x128_S128x128_S12800x128_1_0_0_1_n_n.rhsIdx i q 1).val = (i 1).val := by
  unfold DotDims.rhsIdx
  rw [dif_neg (show ¬(1 : Fin S128x128.rank) ∈ dot_S12800x128_S128x128_S12800x128_1_0_0_1_n_n.rhsBatch by decide),
    dif_pos (show (1 : Fin S128x128.rank) ∈ dot_S12800x128_S128x128_S12800x128_1_0_0_1_n_n.rhsNonContracting by decide)]
  rfl

/-- At the ideal values the product of a [12800, 128] by a [128, 128] array into the zero array, read at (r, c), is the
    plain sum over the shared axis. -/
theorem rows_matmul_apply (a : FVec Ideal S12800x128 .bf16) (b : FVec Ideal S128x128 .bf16) (r : Fin 12800) (c : Fin 128) :
    matmul dot_S12800x128_S128x128_S12800x128_1_0_0_1_n_n none a b (constant S12800x128 .f32 0x00000000#32) (ix2 r c)
      = ∑ i : Fin 128, a (ix2 r i) * b (ix2 i c) := by
  simp only [matmul]
  rw [Ideal.matmul_constant_zero_apply,
    ← Equiv.sum_comp (contrEquiv1 dot_S12800x128_S128x128_S12800x128_1_0_0_1_n_n 128 rfl rfl).symm]
  refine Finset.sum_congr rfl fun k _ => ?_
  have hk := contrEquiv1_symm_val dot_S12800x128_S128x128_S12800x128_1_0_0_1_n_n 128 rfl rfl k
  have el : dot_S12800x128_S128x128_S12800x128_1_0_0_1_n_n.lhsIdx (ix2 r c)
      ((contrEquiv1 dot_S12800x128_S128x128_S12800x128_1_0_0_1_n_n 128 rfl rfl).symm k) = ix2 r k :=
    funext fun ax => Fin.ext (by
      match ax with
      | ⟨0, _⟩ => exact dotLeft_0 _ _
      | ⟨1, _⟩ => exact (dotLeft_1 _ _).trans hk)
  have er : dot_S12800x128_S128x128_S12800x128_1_0_0_1_n_n.rhsIdx (ix2 r c)
      ((contrEquiv1 dot_S12800x128_S128x128_S12800x128_1_0_0_1_n_n 128 rfl rfl).symm k) = ix2 k c :=
    funext fun ax => Fin.ext (by
      match ax with
      | ⟨0, _⟩ => exact (dotRight_0 _ _).trans hk
      | ⟨1, _⟩ => exact dotRight_1 _ _)
  rw [el, er]

/-- The rectifier as the body prints it (compare with zero, scale by the slope, select), read at any index. -/
theorem leaky_apply {s : Shape} (x : FVec Ideal s .f32) (j : s.Idx) :
    select (cmpf .oge x (broadcast s (Scalar.ofBits .f32 0x00000000#32))) x
        (mulf (broadcast s (Scalar.ofBits .f32 0x3C23D70A#32)) x) j
      = Cert.NodeLayer.leaky (x j) := rfl

/-- The first affine map over the flattened block, read at row `32·p + k` and column `h`: neighbour `k` of node
    `p` against row `h` of the weight, plus the bias at `h`. -/
theorem affine_rows_apply (v0 : Vec Ideal S400x32x128 .f32) (v3 : Vec Ideal S128x128 .f32) (v7 : Vec Ideal S128 .f32)
    (hc : S400x32x128.ShapeCasts S12800x128) (ht : S128x128.Transposes [1, 0] S128x128)
    (h₁ : S128.ShapeCasts S1x128) (h₂ : S1x128.Broadcasts S12800x128) (hb : FTy.bits .bf16 < FTy.bits .f32)
    (p : Fin 400) (k : Fin 32) (h : Fin 128) :
    addf (F := Ideal)
        (matmul dot_S12800x128_S128x128_S12800x128_1_0_0_1_n_n none
          (truncf (F := Ideal) .bf16 (shapeCast S12800x128 v0 hc) hb)
          (transpose S128x128 [1, 0] (truncf (F := Ideal) .bf16 v3 hb) ht)
          (constant S12800x128 .f32 0x00000000#32))
        (broadcastTo S12800x128 (shapeCast S1x128 v7 h₁) h₂) (ix2 (flatRow p k) h)
      = (∑ i : Fin 128, v0 (ix3 p k i) * v3 (ix2 h i)) + v7 (ix1 h) := by
  rw [addf_apply, rows_matmul_apply, bias_rows_apply]
  refine congrArg (· + v7 (ix1 h)) (Finset.sum_congr rfl fun i _ => ?_)
  rw [truncf_apply, flatten_apply, transpose_ix2_apply, truncf_apply]

end Pooled

theorem blockPooled_apply (v0 : Vec Ideal S400x32x128 .f32) (v3 : Vec Ideal S128x128 .f32)
    (v7 : Vec Ideal S128 .f32) (v17 : Vec Ideal S400x32 .f32) (p : Fin 400) (h : Fin 128) :
    blockPooled v0 v3 v7 v17 (ix2 p h)
      = Cert.NodeLayer.pooled (fun k => v17 (ix2 p k)) (fun k i => v0 (ix3 p k i))
          (fun h i => v3 (ix2 h i)) (fun h => v7 (ix1 h)) h := by
  unfold blockPooled Cert.NodeLayer.pooled
  dsimp only
  refine (divf_apply _ _ _).trans (congrArg₂ Ideal.div ?_ ?_)
  · -- the weighted sum of the neighbours' hidden rows
    refine (Pooled.neighbour_sum_apply _ _ _ _ p h).trans (Finset.sum_congr rfl fun k _ => ?_)
    rw [mulf_apply, Pooled.weights_lanes_apply, Pooled.unflatten_apply]
    refine congrArg (v17 (ix2 p k) * ·) ((Pooled.leaky_apply _ _).trans ?_)
    unfold Cert.NodeLayer.hidden
    exact congrArg Cert.NodeLayer.leaky (Pooled.affine_rows_apply v0 v3 v7 _ _ _ _ _ p k h)
  · -- the safe sum of the weights
    refine (Pooled.safe_column_apply _ _ _ p h).trans (congrArg Cert.NodeLayer.safeDen ?_)
    refine (Cert.LibKeepdims.lane_sum_apply _ _ _ _ p).trans ?_
    rw [shapeCast_self]

end Cert.KernelIdeal.Block

end
-- ==== Proof.KernelTail.lean ====
import proofs.«135298_j88441966559451_1_alg».proof.Proof.KernelTerms
import proofs.«135298_j88441966559451_1_alg».proof.Proof.NodeLayer
import proofs.«135298_j88441966559451_1_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Block

open Cert.KernelIdeal Cert.KernelIdeal.Gen Idealize.ShloMosaic Idealize.ShloMosaic.ValueIdx

/-! ## The second linear map: the contraction's operand indices, one axis at a time -/

/-- The left operand's row is the output's row. -/
theorem mixed_lhs_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide),
    dif_pos (show (0 : Fin S400x256.rank) ∈ dot_S400x256_S256x128_S400x128_1_0_0_1_n_n.lhsNonContracting by decide)]
  rfl

/-- The left operand's column is the contracted position. -/
theorem mixed_lhs_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q

/-- The right operand's row is the contracted position. -/
theorem mixed_rhs_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q

/-- The right operand's column is the output's column. -/
theorem mixed_rhs_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide),
    dif_pos (show (1 : Fin S256x128.rank) ∈ dot_S400x256_S256x128_S400x128_1_0_0_1_n_n.rhsNonContracting by decide)]
  rfl

/-- A product of a [400, 256] array with a [256, 128] array into the zero pattern, read at (p, o): the sum over the
    256 contracted positions of the left operand at (p, j) times the right at (j, o). -/
theorem mixed_contract (x : FVec Ideal S400x256 .bf16) (y : FVec Ideal S256x128 .bf16) (p : Fin 400) (o : Fin 128) :
    FloatOps.matmul dot_S400x256_S256x128_S400x128_1_0_0_1_n_n none x y (constant S400x128 .f32 0x00000000#32) (ix2 p o)
      = ∑ j : Fin 256, x (ix2 p j) * y (ix2 j o) := by
  rw [Ideal.matmul_constant_zero_apply,
    ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 p o)
      ((contrEquiv1 dot_S400x256_S256x128_S400x128_1_0_0_1_n_n 256 rfl rfl).symm k) = ix2 p k :=
    funext fun a => Fin.ext (by
      match a with
      | ⟨0, _⟩ => exact mixed_lhs_0 _ _
      | ⟨1, _⟩ => exact (mixed_lhs_1 _ _).trans hk)
  have er : dot_S400x256_S256x128_S400x128_1_0_0_1_n_n.rhsIdx (ix2 p o)
      ((contrEquiv1 dot_S400x256_S256x128_S400x128_1_0_0_1_n_n 256 rfl rfl).symm k) = ix2 k o :=
    funext fun a => Fin.ext (by
      match a with
      | ⟨0, _⟩ => exact (mixed_rhs_0 _ _).trans hk
      | ⟨1, _⟩ => exact mixed_rhs_1 _ _)
  rw [el, er]

/-- Two [400, 128] arrays laid side by side along the columns, read at (p, j): the first at (p, j) for j below 128,
    else the second at (p, j - 128). -/
theorem mixed_joined_apply {α : Type} (x₁ x₂ : S400x128.Idx → α) (p : Fin 400) (j : Fin 256) :
    concatenate S400x256 1 [⟨S400x128, x₁⟩, ⟨S400x128, x₂⟩] concatenates_S400x128_S400x128_S400x256_d1 (ix2 p j)
      = if h : j.val < 128 then x₁ (ix2 p ⟨j.val, h⟩)
        else x₂ (ix2 p ⟨j.val - 128, by have := j.isLt; omega⟩) := by
  split
  · next h =>
    exact concatenate_pair_apply_left 1 x₁ x₂ _ (ix2 p j) rfl (ix2 p ⟨j.val, h⟩)
      fun b => match b with | ⟨0, _⟩ => rfl | ⟨1, _⟩ => rfl
  · next h =>
    refine concatenate_pair_apply_right 1 x₁ x₂ _ (ix2 p j) rfl rfl (ix2 p ⟨j.val - 128, by have := j.isLt; omega⟩)
      (fun b hb => match b with | ⟨0, _⟩ => rfl | ⟨1, _⟩ => absurd rfl hb) ?_
    show j.val - 128 + 128 = j.val
    omega

/-- The second stage at (p, o): row o of the second weight against node p's joined row (its own row, then its
    pooled row), summed over the 256 joined positions. -/
theorem blockMixed_apply (v30 : FVec Ideal S400x128 .f32) (v31 : Vec Ideal S400x128 .f32)
    (v33 : Vec Ideal S128x256 .f32) (p : Fin 400) (o : Fin 128) :
    blockMixed v30 v31 v33 (ix2 p o)
      = Cert.NodeLayer.mixed (Cert.NodeLayer.joined (fun i => v31 (ix2 p i)) (fun h => v30 (ix2 p h)))
          (fun o j => v33 (ix2 o j)) o := by
  unfold blockMixed Cert.NodeLayer.mixed
  dsimp only
  refine (mixed_contract _ _ p o).trans (Finset.sum_congr rfl fun j _ => ?_)
  refine congrArg₂ (· * ·) ?_ ?_
  · refine (mixed_joined_apply v31 v30 p j).trans ?_
    unfold Cert.NodeLayer.joined
    rfl
  · exact transpose_ix2_apply _ _ j o

/-! ## The last stage: bias, rectifier, and the division of each row by its Euclidean norm -/

/-- A vector [128] as a row [1, 128] spread down the 400 rows: at (p, q), the vector at q. -/
theorem norm_bias_apply {α : Type} (b : S128.Idx → α) (p : Fin 400) (q : Fin 128) :
    broadcastTo S400x128 (shapeCast S1x128 b shapeCasts_S128_S1x128) broadcasts_S1x128_S400x128 (ix2 p q) = b (ix1 q) :=
  (broadcastTo_1b_ab_apply _ _ p q).trans (shapeCast_a_1a_apply b _ (0 : Fin 1) q)

/-- A column [a, 1] spread across the columns of [a, b]: at (p, q), the column at p. -/
theorem norm_spread_apply {α : Type} {a b : ℕ} (w : (⟨2, ![a, 1]⟩ : Shape).Idx → α)
    (h : (⟨2, ![a, 1]⟩ : Shape).Broadcasts ⟨2, ![a, b]⟩) (p : Fin a) (q : Fin b) :
    broadcastTo ⟨2, ![a, b]⟩ w h (ix2 p q) = w (ix2 p (0 : Fin 1)) := by
  refine broadcastTo_apply w h (ix2 p q) (ix2 p (0 : Fin 1)) fun ax => ?_
  match ax with
  | ⟨0, _⟩ =>
    show p.val = if a = 1 then 0 else p.val
    split
    · have := p.isLt; omega
    · rfl
  | ⟨1, _⟩ => rfl

/-- The rows after the bias and the rectifier: the sum with the spread bias, kept where it is at least zero and
    scaled by the slope elsewhere. -/
def activatedRows (v37 : FVec Ideal S400x128 .f32) (v38 : Vec Ideal S128 .f32) : FVec Ideal S400x128 .f32 :=
  have v41 : FVec Ideal S400x128 .f32 :=
    addf v37 (broadcastTo S400x128 (shapeCast S1x128 v38 shapeCasts_S128_S1x128) broadcasts_S1x128_S400x128)
  select (cmpf .oge v41 (broadcast S400x128 (Scalar.ofBits .f32 0x00000000#32))) v41
    (mulf (broadcast S400x128 (Scalar.ofBits .f32 0x3C23D70A#32)) v41)

/-- At (p, q) the activated rows are the node's activated entry q. -/
theorem activatedRows_apply (v37 : FVec Ideal S400x128 .f32) (v38 : Vec Ideal S128 .f32) (p : Fin 400) (q : Fin 128) :
    activatedRows v37 v38 (ix2 p q)
      = Cert.NodeLayer.activated (fun o => v37 (ix2 p o)) (fun o => v38 (ix1 o)) q :=
  congrArg (fun b => Cert.NodeLayer.leaky (v37 (ix2 p q) + b)) (norm_bias_apply v38 p q)

/-- The rows' Euclidean norms as a column, a zero norm replaced by one: the square root of the lane sum of the
    squares, cast to a column, then the guarded choice. -/
def safeNormColumn (v46 : FVec Ideal S400x128 .f32) : FVec Ideal S400x1 .f32 :=
  have v50 : FVec Ideal S400x1 .f32 :=
    sqrt (shapeCast S400x1 (multiReduction (F := Ideal) .add [1] S400 (mulf v46 v46) 0x00000000#32
      reduces_S400x128_S400 (.inl rfl) rfl) shapeCasts_S400_S400x1)
  select (cmpf .oeq v50 (broadcast S400x1 (Scalar.ofBits .f32 0x00000000#32)))
    (broadcast S400x1 (Scalar.ofBits .f32 0x3F800000#32)) v50

/-- At row p the column holds the safe divisor of the square root of the row's sum of squares. -/
theorem safeNormColumn_apply (v46 : FVec Ideal S400x128 .f32) (p : Fin 400) :
    safeNormColumn v46 (ix2 p (0 : Fin 1))
      = Cert.NodeLayer.safeDen (Ideal.sqrt (∑ k : Fin 128, v46 (ix2 p k) * v46 (ix2 p k))) := by
  have hs : shapeCast S400x1 (multiReduction (F := Ideal) .add [1] S400 (mulf v46 v46) 0x00000000#32
      reduces_S400x128_S400 (.inl rfl) rfl) shapeCasts_S400_S400x1 (ix2 p (0 : Fin 1))
      = ∑ k : Fin 128, v46 (ix2 p k) * v46 (ix2 p k) :=
    (shapeCast_apply _ shapeCasts_S400_S400x1 (ix2 p (0 : Fin 1)) (ix1 p) (by
      rw [Shape.rowMajor_val_one, Shape.rowMajor_val_two]
      show p.val = p.val * 1 + 0
      omega)).trans
      (Cert.LibKeepdims.lane_sum_apply (mulf v46 v46) reduces_S400x128_S400 (.inl rfl) rfl p)
  exact congrArg (fun s => Cert.NodeLayer.safeDen (Ideal.sqrt s)) hs

/-- The last stage at (p, q): entry q of node p's activated row divided by the row's Euclidean norm, a zero norm
    replaced by one. -/
theorem pay1_apply (v37 : FVec Ideal S400x128 .f32) (v38 : Vec Ideal S128 .f32) (p : Fin 400) (q : Fin 128) :
    k0_pay1 v37 v38 (ix2 p q)
      = Cert.NodeLayer.normalized (fun o => v37 (ix2 p o)) (fun o => v38 (ix1 o)) q := by
  show Ideal.div (activatedRows v37 v38 (ix2 p q))
      (broadcastTo S400x128 (safeNormColumn (activatedRows v37 v38)) broadcasts_S400x1_S400x128 (ix2 p q)) = _
  unfold Cert.NodeLayer.normalized
  refine congrArg₂ Ideal.div (activatedRows_apply v37 v38 p q) ?_
  refine (norm_spread_apply _ broadcasts_S400x1_S400x128 p q).trans ((safeNormColumn_apply _ p).trans ?_)
  refine congrArg (fun s => Cert.NodeLayer.safeDen (Ideal.sqrt s)) (Finset.sum_congr rfl fun k _ => ?_)
  rw [activatedRows_apply v37 v38 p k]

end Cert.KernelIdeal.Block

end
-- ==== Proof.Whole.lean ====
/-
  The layer over all 50000 nodes: row n of the output array is one node's output row (NodeLayer.out) of row n of the
  node features, rows (n, ·) of the neighbour features and of the neighbour weights, and the four parameter arrays.
-/
import proofs.«135298_j88441966559451_1_alg».proof.Proof.NodeLayer
import Idealize.ShloMosaic.Lib.ValueIdx

noncomputable section

namespace Cert.NodeLayer

open Idealize.ShloMosaic Idealize.ShloMosaic.ValueIdx

/-- Node `n`'s output row at `o`, of the seven arrays. The neighbour weights come as a [50000, 32, 1] array. -/
def rowOut (a0 : (⟨2, ![50000, 128]⟩ : Shape).Idx → EReal) (a1 : (⟨3, ![50000, 32, 128]⟩ : Shape).Idx → EReal)
    (a2 : (⟨3, ![50000, 32, 1]⟩ : Shape).Idx → EReal) (a3 : (⟨2, ![128, 128]⟩ : Shape).Idx → EReal)
    (a4 : (⟨1, ![128]⟩ : Shape).Idx → EReal) (a5 : (⟨2, ![128, 256]⟩ : Shape).Idx → EReal)
    (a6 : (⟨1, ![128]⟩ : Shape).Idx → EReal) (n : Fin 50000) (o : Fin 128) : EReal :=
  out (fun q => a0 (ix2 n q)) (fun k q => a1 (ix3 n k q)) (fun k => a2 (ix3 n k (0 : Fin 1)))
    (fun h q => a3 (ix2 h q)) (fun h => a4 (ix1 h)) (fun o j => a5 (ix2 o j)) (fun o => a6 (ix1 o)) o

/-- The whole output array. -/
def wholeOut (a0 : (⟨2, ![50000, 128]⟩ : Shape).Idx → EReal) (a1 : (⟨3, ![50000, 32, 128]⟩ : Shape).Idx → EReal)
    (a2 : (⟨3, ![50000, 32, 1]⟩ : Shape).Idx → EReal) (a3 : (⟨2, ![128, 128]⟩ : Shape).Idx → EReal)
    (a4 : (⟨1, ![128]⟩ : Shape).Idx → EReal) (a5 : (⟨2, ![128, 256]⟩ : Shape).Idx → EReal)
    (a6 : (⟨1, ![128]⟩ : Shape).Idx → EReal) : (⟨2, ![50000, 128]⟩ : Shape).Idx → EReal :=
  fun i => rowOut a0 a1 a2 a3 a4 a5 a6 (i 0) (i 1)

theorem wholeOut_ix2 (a0 : (⟨2, ![50000, 128]⟩ : Shape).Idx → EReal) (a1 : (⟨3, ![50000, 32, 128]⟩ : Shape).Idx → EReal)
    (a2 : (⟨3, ![50000, 32, 1]⟩ : Shape).Idx → EReal) (a3 : (⟨2, ![128, 128]⟩ : Shape).Idx → EReal)
    (a4 : (⟨1, ![128]⟩ : Shape).Idx → EReal) (a5 : (⟨2, ![128, 256]⟩ : Shape).Idx → EReal)
    (a6 : (⟨1, ![128]⟩ : Shape).Idx → EReal) (n : Fin 50000) (o : Fin 128) :
    wholeOut a0 a1 a2 a3 a4 a5 a6 (ix2 n o) = rowOut a0 a1 a2 a3 a4 a5 a6 n o := rfl

end Cert.NodeLayer

end
-- ==== Proof.KernelValue.lean ====
/-
  From blocks to the array. The grid has 125 points; point t stages rows 400 t … 400 t + 399 of the node features, of
  the neighbour features and of the neighbour weights (a [50000, 32] array: the [50000, 32, 1] argument with its unit
  axis dropped by a reshape before the launch), and the four parameter arrays whole. What the body leaves in the output
  block at (p, q) is one node's output row (NodeLayer.out) of the block's row p (`blockOut`); read through the blocks
  (`blk0_apply` … `blk6_apply`) that is the layer's row 400 t + p of the argument arrays, so point t writes back block
  t of the whole-array function (`flushed_eq`); every row lies in the block of point (row / 400) (`cover`), so the
  output array ends holding that function (`final`, `run`).
-/
import proofs.«135298_j88441966559451_1_alg».proof.Proof.Gen.KernelIdeal.Value
import proofs.«135298_j88441966559451_1_alg».proof.Proof.KernelTerms
import proofs.«135298_j88441966559451_1_alg».proof.Proof.KernelPooled
import proofs.«135298_j88441966559451_1_alg».proof.Proof.KernelTail
import proofs.«135298_j88441966559451_1_alg».proof.Proof.Whole
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-1 access. -/
theorem hz1 : (![0] : Fin 1 → Nat) = fun _ => 0 := funext fun a => by fin_cases a; rfl
/-- The zero offsets of a rank-2 access. -/
theorem hz2 : (![0, 0] : Fin 2 → Nat) = fun _ => 0 := funext fun a => by fin_cases a <;> rfl
/-- The zero offsets of a rank-3 access. -/
theorem hz3 : (![0, 0, 0] : Fin 3 → Nat) = fun _ => 0 := funext fun a => by fin_cases a <;> rfl

/-- What the body leaves in the output block, at row p and entry q: one node's output row of row p of the node block, rows (p, ·) of the neighbour block and of the weight block, and the parameters. The body's one store covers the block, its loads read whole buffers, and its two payloads are the three stages. -/
theorem blockOut (x0 : Vec Ideal S400x128 .f32) (x1 : Vec Ideal S400x32x128 .f32) (x2 : Vec Ideal S400x32 .f32)
    (x3 : Vec Ideal S128x128 .f32) (x4 : Vec Ideal S128 .f32) (x5 : Vec Ideal S128x256 .f32) (x6 : Vec Ideal S128 .f32)
    (p : Fin 400) (q : Fin 128) :
    out0_7 x0 x1 x2 x3 x4 x5 x6 (ix2 p q)
      = Cert.NodeLayer.out (fun i => x0 (ix2 p i)) (fun k i => x1 (ix3 p k i)) (fun k => x2 (ix2 p k))
          (fun h i => x3 (ix2 h i)) (fun h => x4 (ix1 h)) (fun o j => x5 (ix2 o j)) (fun o => x6 (ix1 o)) q := by
  unfold out0_7
  rw [View.canon_unit_zero hz2]
  simp only [View.ld_unit_zero (S := S400x32x128) hz3, View.ld_unit_zero (S := S128x128) hz2,
    View.ld_unit_zero (S := S128) hz1, View.ld_unit_zero (S := S400x32) hz2,
    View.ld_unit_zero (S := S400x128) hz2, View.ld_unit_zero (S := S128x256) hz2]
  rw [pay2_eq, pay1_apply]
  simp only [blockMixed_apply, blockPooled_apply]
  rfl

/-- The weights as the region finds them: the [50000, 32, 1] argument reshaped to [50000, 32] by the one host operation before the launch. -/
theorem alpha_eq (c : Dev nD) :
    (V m c main_v0 : S50000x32.Idx → EReal)
      = shapeCast S50000x32 (m ((c : Thread nD τ).loc main_arg2)) shapeCasts_S50000x32x1_S50000x32 := by
  dsimp only [Gen.V, Gen.hostOps0]
  after_results
  rfl

/-- The printed index maps over the grid: the three row-blocked inputs and the output are at block row t, column block 0; the four parameter arrays at block 0. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- That reshape at (n, k): the argument at (n, k, 0), both being entry 32 n + k in row-major order. -/
theorem alpha_apply (c : Dev nD) (n : Fin 50000) (k : Fin 32) :
    (V m c main_v0 : S50000x32.Idx → EReal) (ix2 n k)
      = (m ((c : Thread nD τ).loc main_arg2) : S50000x32x1.Idx → EReal) (ix3 n k (0 : Fin 1)) := by
  rw [alpha_eq]
  refine shapeCast_apply _ _ _ _ ?_
  show (S50000x32x1.rowMajor (ix3 n k (0 : Fin 1))).val = (S50000x32.rowMajor (ix2 n k)).val
  rw [Shape.rowMajor_val_two, Shape.rowMajor_val_three]
  show (n.val * 32 + k.val) * 1 + 0 = n.val * 32 + k.val
  omega

/-- A grid point's number is below 125. -/
theorem tlt (t : Fin cfg0.N) : t.val < 125 := by
  have h : cfg0.N = 125 := N_0
  have := t.isLt
  omega

/-- Row `p` of point `t`'s block is row `400 t + p` of the array. -/
abbrev rowOf (t : Fin cfg0.N) (p : Fin 400) : Fin 50000 := ⟨400 * t.val + p.val, by have := tlt t; have := p.isLt; omega⟩

/-- The node block at point t, row p: row 400 t + p of the node features. -/
theorem blk0_apply (c : Dev nD) (t : Fin cfg0.N) (p : Fin 400) (q : Fin 128) :
    (iblk m c 0 t : Vec Ideal S400x128 .f32) (ix2 p q)
      = (m ((c : Thread nD τ).loc main_arg0) : S50000x128.Idx → EReal) (ix2 (rowOf t p) q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 400 + 1 * p.val = 400 * t.val + p.val; rw [e0]; omega
  | ⟨1, _⟩ => show win0_0.index t (1 : Fin 2) * 128 + 1 * q.val = q.val; rw [e1]; omega

/-- The neighbour block at point t, row p: rows (400 t + p, ·, ·) of the neighbour features. -/
theorem blk1_apply (c : Dev nD) (t : Fin cfg0.N) (p : Fin 400) (k : Fin 32) (i : Fin 128) :
    (iblk m c 1 t : Vec Ideal S400x32x128 .f32) (ix3 p k i)
      = (m ((c : Thread nD τ).loc main_arg1) : S50000x32x128.Idx → EReal) (ix3 (rowOf t p) k i) := by
  obtain ⟨-, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 400 + 1 * p.val = 400 * t.val + p.val; rw [e0]; omega
  | ⟨1, _⟩ => show win0_1.index t (1 : Fin 3) * 32 + 1 * k.val = k.val; rw [e1]; omega
  | ⟨2, _⟩ => show win0_1.index t (2 : Fin 3) * 128 + 1 * i.val = i.val; rw [e2]; omega

/-- The weight block at point t, row p: the weights (400 t + p, ·, 0) of the argument. -/
theorem blk2_apply (c : Dev nD) (t : Fin cfg0.N) (p : Fin 400) (k : Fin 32) :
    (iblk m c 2 t : Vec Ideal S400x32 .f32) (ix2 p k)
      = (m ((c : Thread nD τ).loc main_arg2) : S50000x32x1.Idx → EReal) (ix3 (rowOf t p) k (0 : Fin 1)) := by
  obtain ⟨-, -, -, -, -, e0, e1, -⟩ := idx_facts t
  rw [← alpha_apply m c (rowOf t p) k]
  unfold iblk
  rw [View.read_apply]
  show V m c main_v0 _ = _
  congr 1
  funext a
  apply Fin.ext
  match a with
  | ⟨0, _⟩ => show win0_2.index t (0 : Fin 2) * 400 + 1 * p.val = 400 * t.val + p.val; rw [e0]; omega
  | ⟨1, _⟩ => show win0_2.index t (1 : Fin 2) * 32 + 1 * k.val = k.val; rw [e1]; omega

/-- The first weight matrix is staged whole. -/
theorem blk3_apply (c : Dev nD) (t : Fin cfg0.N) (h : Fin 128) (i : Fin 128) :
    (iblk m c 3 t : Vec Ideal S128x128 .f32) (ix2 h i)
      = (m ((c : Thread nD τ).loc main_arg3) : S128x128.Idx → EReal) (ix2 h i) := by
  obtain ⟨-, -, -, -, -, -, -, e0, e1, -⟩ := idx_facts t
  unfold iblk
  rw [View.read_apply]
  show V m c main_arg3 _ = _
  rw [V_main_arg3]
  congr 1
  funext a
  apply Fin.ext
  match a with
  | ⟨0, _⟩ => show win0_3.index t (0 : Fin 2) * 128 + 1 * h.val = h.val; rw [e0]; omega
  | ⟨1, _⟩ => show win0_3.index t (1 : Fin 2) * 128 + 1 * i.val = i.val; rw [e1]; omega

/-- The first bias is staged whole. -/
theorem blk4_apply (c : Dev nD) (t : Fin cfg0.N) (h : Fin 128) :
    (iblk m c 4 t : Vec Ideal S128 .f32) (ix1 h)
      = (m ((c : Thread nD τ).loc main_arg4) : S128.Idx → EReal) (ix1 h) := by
  obtain ⟨-, -, -, -, -, -, -, -, -, e0, -⟩ := idx_facts t
  unfold iblk
  rw [View.read_apply]
  show V m c main_arg4 _ = _
  rw [V_main_arg4]
  congr 1
  funext a
  apply Fin.ext
  match a with
  | ⟨0, _⟩ => show win0_4.index t (0 : Fin 1) * 128 + 1 * h.val = h.val; rw [e0]; omega

/-- The second weight matrix is staged whole. -/
theorem blk5_apply (c : Dev nD) (t : Fin cfg0.N) (o : Fin 128) (j : Fin 256) :
    (iblk m c 5 t : Vec Ideal S128x256 .f32) (ix2 o j)
      = (m ((c : Thread nD τ).loc main_arg5) : S128x256.Idx → EReal) (ix2 o j) := by
  obtain ⟨-, -, -, -, -, -, -, -, -, -, e0, e1, -⟩ := idx_facts t
  unfold iblk
  rw [View.read_apply]
  show V m c main_arg5 _ = _
  rw [V_main_arg5]
  congr 1
  funext a
  apply Fin.ext
  match a with
  | ⟨0, _⟩ => show win0_5.index t (0 : Fin 2) * 128 + 1 * o.val = o.val; rw [e0]; omega
  | ⟨1, _⟩ => show win0_5.index t (1 : Fin 2) * 256 + 1 * j.val = j.val; rw [e1]; omega

/-- The second bias is staged whole. -/
theorem blk6_apply (c : Dev nD) (t : Fin cfg0.N) (o : Fin 128) :
    (iblk m c 6 t : Vec Ideal S128 .f32) (ix1 o)
      = (m ((c : Thread nD τ).loc main_arg6) : S128.Idx → EReal) (ix1 o) := by
  obtain ⟨-, -, -, -, -, -, -, -, -, -, -, -, e0, -⟩ := idx_facts t
  unfold iblk
  rw [View.read_apply]
  show V m c main_arg6 _ = _
  rw [V_main_arg6]
  congr 1
  funext a
  apply Fin.ext
  match a with
  | ⟨0, _⟩ => show win0_6.index t (0 : Fin 1) * 128 + 1 * o.val = o.val; rw [e0]; omega

/-- The output array as the layer of the seven argument arrays. -/
abbrev result (c : Dev nD) : Buf (Elt Ideal) ((c : Thread nD τ).loc main_v1) :=
  Cert.NodeLayer.wholeOut (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What point t writes back is block t of the layer of the argument arrays: entry (p, q) of the block is array entry (400 t + p, q), and there the body's result and the layer are the same node's output row. -/
theorem flushed_eq (c : Dev nD) (t : Fin cfg0.N) :
    (dats m 0 c).flushed 7 t = ((cfg0.win 7).blk t).view.read (Elt Ideal) (result m c) := by
  obtain ⟨-, -, -, -, -, -, -, -, -, -, -, -, -, e0, e1⟩ := idx_facts t
  rw [Value.flushed7]
  funext j
  obtain ⟨p, q, rfl⟩ : ∃ (p : Fin 400) (q : Fin 128), j = ix2 p q := ⟨j 0, j 1, eq_ix2 j⟩
  show out0_7 (iblk m c 0 t) (iblk m c 1 t) (iblk m c 2 t) (iblk m c 3 t) (iblk m c 4 t) (iblk m c 5 t) (iblk m c 6 t) (ix2 p q)
    = result m c (((cfg0.win 7).blk t).view.emb (ix2 p q))
  have hemb : ((cfg0.win 7).blk t).view.emb (ix2 p q) = (ix2 (rowOf t p) q : S50000x128.Idx) := by
    funext a
    apply Fin.ext
    match a with
    | ⟨0, _⟩ => show win0_7.index t (0 : Fin 2) * 400 + 1 * p.val = 400 * t.val + p.val; rw [e0]; omega
    | ⟨1, _⟩ => show win0_7.index t (1 : Fin 2) * 128 + 1 * q.val = q.val; rw [e1]; omega
  rw [hemb]
  refine (blockOut (iblk m c 0 t) (iblk m c 1 t) (iblk m c 2 t) (iblk m c 3 t) (iblk m c 4 t) (iblk m c 5 t) (iblk m c 6 t) p q).trans ?_
  show _ = Cert.NodeLayer.rowOut _ _ _ _ _ _ _ (rowOf t p) q
  unfold Cert.NodeLayer.rowOut
  simp only [blk0_apply, blk1_apply, blk2_apply, blk3_apply, blk4_apply, blk5_apply, blk6_apply]

/-- An array index is in point t's output block iff each coordinate is in the block's range on its axis. -/
theorem mem_blk (t : Fin cfg0.N) (i : S50000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v1).slice (win0_7.rect t)).set ↔ _
  rw [View.set_slice_whole, Rect.mem_set_unit]
  exact Iff.rfl

/-- Every array index is in the output block of the point numbered by its row divided by 400. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 400, by rw [show cfg0.N = 125 from N_0]; omega⟩
  obtain ⟨-, -, -, -, -, -, -, -, -, -, -, -, -, e0, e1⟩ := idx_facts t
  have ht : t.val = (i 0).val / 400 := rfl
  refine ⟨t, flush0_7 t, ?_⟩
  rw [mem_blk]
  intro a
  match a with
  | ⟨0, _⟩ => show win0_7.index t (0 : Fin 2) * 400 ≤ (i 0).val ∧ (i 0).val < win0_7.index t (0 : Fin 2) * 400 + 400; rw [e0, ht]; omega
  | ⟨1, _⟩ => show win0_7.index t (1 : Fin 2) * 128 ≤ (i 1).val ∧ (i 1).val < win0_7.index t (1 : Fin 2) * 128 + 128; rw [e1]; omega

/-- So the output array ends holding the layer of the argument arrays. -/
theorem final (c : Dev nD) : (dats m 0 c).arrAt 7 cfg0.N = result m c :=
  (dats m 0 c).arrAt_eq_of_cover 7 (result m c) (fun t _ => flushed_eq m c t) cover

/-- The kernel's run, read: the output array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefTerm.lean ====
/-
  The reference's result as one term of its seven argument arrays, in three stages: the weighted average of the
  neighbours' hidden rows (`refPooled`), the second linear map of the joined rows before its bias (`refMixed`),
  and the bias, rectifier and row normalisation (`refNormalized`). Each stage is the reference's own operations
  in program order, the outlined functions' bodies written at their calls.
-/
import proofs.«135298_j88441966559451_1_alg».proof.Proof.Gen.ReferenceIdeal

noncomputable section

namespace Cert.ReferenceIdeal.Result

open Cert.ReferenceIdeal Cert.ReferenceIdeal.Gen Idealize.ShloMosaic Idealize.SL.Sem

variable {F : FTy → Type} [FloatOps F]

/-- Operations %0 to %14: the neighbours' affine map and rectifier, the weighted sum over the neighbours, the sum
    of the weights made safe, and their quotient. -/
def refPooled (a1 : FVec F S50000x32x128 .f32) (a2 : FVec F S50000x32x1 .f32) (a3 : FVec F S128x128 .f32)
    (a4 : FVec F S128 .f32) : FVec F S50000x128 .f32 :=
  have v0 : FVec F S50000x32x128 .f32 := Host.dotGeneral dot_S50000x32x128_S128x128_S50000x32x128_2_1_01_0_n_n none a1 a3
  have v1 : FVec F S1x1x128 .f32 := broadcastInDim S1x1x128 ![2] bcast_S128_S1x1x128_2 a4
  have v2 : FVec F S50000x32x128 .f32 := broadcastInDim S50000x32x128 ![0, 1, 2] bcast_S1x1x128_S50000x32x128_0_1_2 v1
  have v3 : FVec F S50000x32x128 .f32 := addf v0 v2
  have cst : FVec F S_ .f32 := constant S_ .f32 0x3C23D70A#32
  have l_cst : FVec F S_ .f32 := constant S_ .f32 0x00000000#32
  have l_v0 : FVec F S50000x32x128 .f32 := broadcastInDim S50000x32x128 ![] bcast_S_S50000x32x128 l_cst
  have l_v1 : IVec S50000x32x128 1 := cmpf .oge v3 l_v0
  have l_v2 : FVec F S_ .f32 := id cst
  have l_v3 : FVec F S50000x32x128 .f32 := broadcastInDim S50000x32x128 ![] bcast_S_S50000x32x128 l_v2
  have l_v4 : FVec F S50000x32x128 .f32 := mulf l_v3 v3
  have v4 : FVec F S50000x32x128 .f32 := select l_v1 v3 l_v4
  have v5 : FVec F S50000x32x128 .f32 := broadcastInDim S50000x32x128 ![0, 1, 2] bcast_S50000x32x1_S50000x32x128_0_1_2 a2
  have v6 : FVec F S50000x32x128 .f32 := mulf v5 v4
  have cst_0 : FVec F S_ .f32 := constant S_ .f32 0x00000000#32
  have v7 : FVec F S50000x128 .f32 := Host.reduceAdd v6 cst_0 reducesTo_S50000x32x128_S50000x128_d1 h_S_
  have cst_1 : FVec F S_ .f32 := constant S_ .f32 0x00000000#32
  have v8 : FVec F S50000x1 .f32 := Host.reduceAdd a2 cst_1 reducesTo_S50000x32x1_S50000x1_d1 h_S_
  have cst_2 : FVec F S_ .f32 := constant S_ .f32 0x00000000#32
  have v9 : FVec F S50000x1 .f32 := broadcastInDim S50000x1 ![] bcast_S_S50000x1 cst_2
  have v10 : IVec S50000x1 1 := cmpf .oeq v8 v9
  have cst_3 : FVec F S_ .f32 := constant S_ .f32 0x3F800000#32
  have v11 : FVec F S50000x1 .f32 := broadcastInDim S50000x1 ![] bcast_S_S50000x1 cst_3
  have v12 : FVec F S50000x1 .f32 := select v10 v11 v8
  have v13 : FVec F S50000x128 .f32 := broadcastInDim S50000x128 ![0, 1] bcast_S50000x1_S50000x128_0_1 v12
  have v14 : FVec F S50000x128 .f32 := Host.divf v7 v13
  v14

/-- Operations %15 to %17: the node rows joined with the pooled rows, against the transposed second weight. -/
def refMixed (a0 : FVec F S50000x128 .f32) (v14 : FVec F S50000x128 .f32) (a5 : FVec F S128x256 .f32) :
    FVec F S50000x128 .f32 :=
  have v15 : FVec F S50000x256 .f32 := concatenate S50000x256 1 [⟨S50000x128, a0⟩, ⟨S50000x128, v14⟩] concatenates_S50000x128_S50000x128_S50000x256_d1
  have v16 : FVec F S256x128 .f32 := transpose S256x128 [1, 0] a5 transposes_S128x256_S256x128_1_0
  have v17 : FVec F S50000x128 .f32 := Host.dotGeneral dot_S50000x256_S256x128_S50000x128_1_0_0_1_n_n none v15 v16
  v17

/-- Operations %18 to %28: the bias, the rectifier, the row norms made safe, and the quotient. -/
def refNormalized (v17 : FVec F S50000x128 .f32) (a6 : FVec F S128 .f32) : FVec F S50000x128 .f32 :=
  have v18 : FVec F S1x128 .f32 := broadcastInDim S1x128 ![1] bcast_S128_S1x128_1 a6
  have v19 : FVec F S50000x128 .f32 := broadcastInDim S50000x128 ![0, 1] bcast_S1x128_S50000x128_0_1 v18
  have v20 : FVec F S50000x128 .f32 := addf v17 v19
  have cst_4 : FVec F S_ .f32 := constant S_ .f32 0x3C23D70A#32
  have l_cst : FVec F S_ .f32 := constant S_ .f32 0x00000000#32
  have l_v0 : FVec F S50000x128 .f32 := broadcastInDim S50000x128 ![] bcast_S_S50000x128 l_cst
  have l_v1 : IVec S50000x128 1 := cmpf .oge v20 l_v0
  have l_v2 : FVec F S_ .f32 := id cst_4
  have l_v3 : FVec F S50000x128 .f32 := broadcastInDim S50000x128 ![] bcast_S_S50000x128 l_v2
  have l_v4 : FVec F S50000x128 .f32 := mulf l_v3 v20
  have v21 : FVec F S50000x128 .f32 := select l_v1 v20 l_v4
  have n_v0 : FVec F S50000x128 .f32 := mulf v21 v21
  have n_cst : FVec F S_ .f32 := constant S_ .f32 0x00000000#32
  have n_v1 : FVec F S50000 .f32 := Host.reduceAdd n_v0 n_cst reducesTo_S50000x128_S50000_d1 h_S_
  have n_v2 : FVec F S50000x1 .f32 := broadcastInDim S50000x1 ![0] bcast_S50000_S50000x1_0 n_v1
  have v22 : FVec F S50000x1 .f32 := Host.sqrt n_v2
  have cst_5 : FVec F S_ .f32 := constant S_ .f32 0x00000000#32
  have v23 : FVec F S50000x1 .f32 := broadcastInDim S50000x1 ![] bcast_S_S50000x1 cst_5
  have v24 : IVec S50000x1 1 := cmpf .oeq v22 v23
  have cst_6 : FVec F S_ .f32 := constant S_ .f32 0x3F800000#32
  have v25 : FVec F S50000x1 .f32 := broadcastInDim S50000x1 ![] bcast_S_S50000x1 cst_6
  have v26 : FVec F S50000x1 .f32 := select v24 v25 v22
  have v27 : FVec F S50000x128 .f32 := broadcastInDim S50000x128 ![0, 1] bcast_S50000x1_S50000x128_0_1 v26
  have v28 : FVec F S50000x128 .f32 := Host.divf v21 v27
  v28

/-- The reference's result: the three stages composed. -/
def refTerm (a0 : FVec F S50000x128 .f32) (a1 : FVec F S50000x32x128 .f32) (a2 : FVec F S50000x32x1 .f32)
    (a3 : FVec F S128x128 .f32) (a4 : FVec F S128 .f32) (a5 : FVec F S128x256 .f32) (a6 : FVec F S128 .f32) :
    FVec F S50000x128 .f32 :=
  refNormalized (refMixed a0 (refPooled a1 a2 a3 a4) a5) a6

end Cert.ReferenceIdeal.Result

end
-- ==== Proof.RefRun.lean ====
/-
  The reference's run read back. Its entry function is a straight line of fifty-three tensor operations once each
  outlined function is written at its call; run in order from the launch contents, the last one leaves in the result
  buffer the composed term of the seven arguments, and no operation writes an argument.
-/
import proofs.«135298_j88441966559451_1_alg».proof.Proof.RefTerm
import Idealize.ShloMosaic.Lib.StableHlo.Run

noncomputable section

namespace Cert.ReferenceIdeal.Result

open Cert.ReferenceIdeal Cert.ReferenceIdeal.Gen Idealize.ShloMosaic Idealize.ShloMosaic.TcCoe Idealize.SL.Sem Idealize.ShloMosaic.StableHlo

variable {F : FTy → Type} [FloatOps F]

/-- The entry function's operations in program order. A call contributes its callee's lines over that call's own
    buffers: the two rectifiers seven each (zero, its broadcast, the comparison, the slope, its broadcast, the
    product, the choice), the three guarded choices one each, the row norm five. -/
abbrev ops : List (HloOp τ sig (Elt F)) :=
  [ -- the neighbours' affine map
    binary main_arg1 main_arg3 main_v0 ((fun l r => Host.dotGeneral dot_S50000x32x128_S128x128_S50000x32x128_2_1_01_0_n_n none l r) : (⟨S50000x32x128, .f32⟩ : BufTy).Contents (Elt F) → (⟨S128x128, .f32⟩ : BufTy).Contents (Elt F) → (⟨S50000x32x128, .f32⟩ : BufTy).Contents (Elt F)),
    unary main_arg4 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S50000x32x128 ![0, 1, 2] bcast_S1x1x128_S50000x32x128_0_1_2 : (⟨S1x1x128, .f32⟩ : BufTy).Contents (Elt F) → (⟨S50000x32x128, .f32⟩ : BufTy).Contents (Elt F)),
    binary main_v0 main_v2 main_v3 (addf : (⟨S50000x32x128, .f32⟩ : BufTy).Contents (Elt F) → (⟨S50000x32x128, .f32⟩ : BufTy).Contents (Elt F) → (⟨S50000x32x128, .f32⟩ : BufTy).Contents (Elt F)),
    nullary main_cst (constant S_ .f32 0x3C23D70A#32),
    -- the rectifier on the neighbours' rows
    TRef.nullary main_call0.cst (constant S_ .f32 0x00000000#32),
    TRef.unary main_call0.cst main_call0.v0 (broadcastInDim S50000x32x128 ![] bcast_S_S50000x32x128),
    TRef.binary (.of main_v3 : TRef sig ⟨S50000x32x128, .f32⟩) main_call0.v0 main_call0.v1 (cmpf .oge),
    TRef.unary (.of main_cst : TRef sig ⟨S_, .f32⟩) main_call0.v2 id,
    TRef.unary main_call0.v2 main_call0.v3 (broadcastInDim S50000x32x128 ![] bcast_S_S50000x32x128),
    TRef.binary main_call0.v3 (.of main_v3 : TRef sig ⟨S50000x32x128, .f32⟩) main_call0.v4 mulf,
    TRef.ternary main_call0.v1 (.of main_v3 : TRef sig ⟨S50000x32x128, .f32⟩) main_call0.v4 main_call0.call0.v0 select,
    -- the weighted sum over the neighbours and the sum of the weights
    unary main_arg2 main_v5 (broadcastInDim S50000x32x128 ![0, 1, 2] bcast_S50000x32x1_S50000x32x128_0_1_2 : (⟨S50000x32x1, .f32⟩ : BufTy).Contents (Elt F) → (⟨S50000x32x128, .f32⟩ : BufTy).Contents (Elt F)),
    binary main_v5 main_v4 main_v6 (mulf : (⟨S50000x32x128, .f32⟩ : BufTy).Contents (Elt F) → (⟨S50000x32x128, .f32⟩ : BufTy).Contents (Elt F) → (⟨S50000x32x128, .f32⟩ : BufTy).Contents (Elt F)),
    nullary main_cst_0 (constant S_ .f32 0x00000000#32),
    binary main_v6 main_cst_0 main_v7 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    nullary main_cst_1 (constant S_ .f32 0x00000000#32),
    binary main_arg2 main_cst_1 main_v8 ((fun x v => Host.reduceAdd x v reducesTo_S50000x32x1_S50000x1_d1 h_S_) : (⟨S50000x32x1, .f32⟩ : BufTy).Contents (Elt F) → (⟨S_, .f32⟩ : BufTy).Contents (Elt F) → (⟨S50000x1, .f32⟩ : BufTy).Contents (Elt F)),
    nullary main_cst_2 (constant S_ .f32 0x00000000#32),
    unary main_cst_2 main_v9 (broadcastInDim S50000x1 ![] bcast_S_S50000x1 : (⟨S_, .f32⟩ : BufTy).Contents (Elt F) → (⟨S50000x1, .f32⟩ : BufTy).Contents (Elt F)),
    binary main_v8 main_v9 main_v10 (cmpf .oeq : (⟨S50000x1, .f32⟩ : BufTy).Contents (Elt F) → (⟨S50000x1, .f32⟩ : BufTy).Contents (Elt F) → (⟨S50000x1, .i1⟩ : BufTy).Contents (Elt F)),
    nullary main_cst_3 (constant S_ .f32 0x3F800000#32),
    unary main_cst_3 main_v11 (broadcastInDim S50000x1 ![] bcast_S_S50000x1 : (⟨S_, .f32⟩ : BufTy).Contents (Elt F) → (⟨S50000x1, .f32⟩ : BufTy).Contents (Elt F)),
    -- a zero weight sum replaced by one
    TRef.ternary (.of main_v10 : TRef sig ⟨S50000x1, .i1⟩) (.of main_v11 : TRef sig ⟨S50000x1, .f32⟩) (.of main_v8 : TRef sig ⟨S50000x1, .f32⟩) main_call1.v0 select,
    -- the quotient, the join with the node's own row, the second linear map and its bias
    unary main_v12 main_v13 (broadcastInDim S50000x128 ![0, 1] bcast_S50000x1_S50000x128_0_1 : (⟨S50000x1, .f32⟩ : BufTy).Contents (Elt F) → (⟨S50000x128, .f32⟩ : BufTy).Contents (Elt F)),
    binary main_v7 main_v13 main_v14 (Host.divf : (⟨S50000x128, .f32⟩ : BufTy).Contents (Elt F) → (⟨S50000x128, .f32⟩ : BufTy).Contents (Elt F) → (⟨S50000x128, .f32⟩ : BufTy).Contents (Elt F)),
    binary main_arg0 main_v14 main_v15 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg5 main_v16 ((transpose S256x128 [1, 0] · transposes_S128x256_S256x128_1_0) : (⟨S128x256, .f32⟩ : BufTy).Contents (Elt F) → (⟨S256x128, .f32⟩ : BufTy).Contents (Elt F)),
    binary main_v15 main_v16 main_v17 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3C23D70A#32),
    -- the rectifier on the mixed rows
    TRef.nullary main_call2.cst (constant S_ .f32 0x00000000#32),
    TRef.unary main_call2.cst main_call2.v0 (broadcastInDim S50000x128 ![] bcast_S_S50000x128),
    TRef.binary (.of main_v20 : TRef sig ⟨S50000x128, .f32⟩) main_call2.v0 main_call2.v1 (cmpf .oge),
    TRef.unary (.of main_cst_4 : TRef sig ⟨S_, .f32⟩) main_call2.v2 id,
    TRef.unary main_call2.v2 main_call2.v3 (broadcastInDim S50000x128 ![] bcast_S_S50000x128),
    TRef.binary main_call2.v3 (.of main_v20 : TRef sig ⟨S50000x128, .f32⟩) main_call2.v4 mulf,
    TRef.ternary main_call2.v1 (.of main_v20 : TRef sig ⟨S50000x128, .f32⟩) main_call2.v4 main_call2.call0.v0 select,
    -- the rows' Euclidean norms
    TRef.binary (.of main_v21 : TRef sig ⟨S50000x128, .f32⟩) (.of main_v21 : TRef sig ⟨S50000x128, .f32⟩) main_call3.v0 mulf,
    TRef.nullary main_call3.cst (constant S_ .f32 0x00000000#32),
    TRef.binary main_call3.v0 main_call3.cst main_call3.v1 (fun x v => Host.reduceAdd x v reducesTo_S50000x128_S50000_d1 h_S_),
    TRef.unary main_call3.v1 main_call3.v2 (broadcastInDim S50000x1 ![0] bcast_S50000_S50000x1_0),
    TRef.unary main_call3.v2 main_call3.v3 Host.sqrt,
    -- a zero norm replaced by one, and the quotient
    nullary main_cst_5 (constant S_ .f32 0x00000000#32),
    unary main_cst_5 main_v23 (broadcastInDim S50000x1 ![] bcast_S_S50000x1 : (⟨S_, .f32⟩ : BufTy).Contents (Elt F) → (⟨S50000x1, .f32⟩ : BufTy).Contents (Elt F)),
    binary main_v22 main_v23 main_v24 (cmpf .oeq : (⟨S50000x1, .f32⟩ : BufTy).Contents (Elt F) → (⟨S50000x1, .f32⟩ : BufTy).Contents (Elt F) → (⟨S50000x1, .i1⟩ : BufTy).Contents (Elt F)),
    nullary main_cst_6 (constant S_ .f32 0x3F800000#32),
    unary main_cst_6 main_v25 (broadcastInDim S50000x1 ![] bcast_S_S50000x1 : (⟨S_, .f32⟩ : BufTy).Contents (Elt F) → (⟨S50000x1, .f32⟩ : BufTy).Contents (Elt F)),
    TRef.ternary (.of main_v24 : TRef sig ⟨S50000x1, .i1⟩) (.of main_v25 : TRef sig ⟨S50000x1, .f32⟩) (.of main_v22 : TRef sig ⟨S50000x1, .f32⟩) main_call4.v0 select,
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v21 main_v27 main_v28 (Host.divf : (⟨S50000x128, .f32⟩ : BufTy).Contents (Elt F) → (⟨S50000x128, .f32⟩ : BufTy).Contents (Elt F) → (⟨S50000x128, .f32⟩ : BufTy).Contents (Elt F)) ]

-- fifty-three sequencing steps are reassociated one inside the other: the rewriting recurses once per step
set_option maxRecDepth 2048 in
/-- The entry function is that straight line: the outlined functions unfolded at their calls, and the sequencing
    reassociated so that both sides are one chain of single steps. -/
theorem main_eq (c : Dev nD) : main (F := F) c = seq ops := by
  simp only [main, fn_leaky_relu.body, fn_where.body, fn_where_0.body, fn_leaky_relu_1.body, fn_where_2.body,
    fn_norm.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches buffers of the one compute unit only. -/
theorem ops_sub : (ops : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub ..,
    unary_bufs_sub .., binary_bufs_sub .., nullary_bufs_sub .., binary_bufs_sub .., nullary_bufs_sub .., binary_bufs_sub ..,
    nullary_bufs_sub .., unary_bufs_sub .., binary_bufs_sub .., nullary_bufs_sub .., unary_bufs_sub ..,
    ternary_bufs_sub ..,
    unary_bufs_sub .., binary_bufs_sub .., binary_bufs_sub .., unary_bufs_sub .., binary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub .., ternary_bufs_sub ..,
    binary_bufs_sub .., nullary_bufs_sub .., binary_bufs_sub .., unary_bufs_sub .., unary_bufs_sub ..,
    nullary_bufs_sub .., unary_bufs_sub .., binary_bufs_sub .., nullary_bufs_sub .., unary_bufs_sub ..,
    ternary_bufs_sub .., unary_bufs_sub .., binary_bufs_sub ..⟩

/-! The result buffer, in three stretches. The composed term of the whole line at once is too large to compare in one
step: a value read several times (the mixed rows fifteen times, through the rectifier and the norm) is re-derived at
every reading. Cut where the reference's term is cut, each stretch reads the value the previous one left as a plain
entry of the contents it starts from. -/

/-- Running a line is running its first `n` operations and then the rest. -/
theorem after_split : ∀ (n : Nat) (l : List (HloOp τ sig (Elt F))) (V : Valuation τ sig (Elt F)),
    after l V = after (l.drop n) (after (l.take n) V)
  | 0, _, _ => rfl
  | _ + 1, [], _ => rfl
  | n + 1, op :: l, V => by
    rw [List.drop_succ_cons, List.take_succ_cons, after_cons, after_cons, after_split n l]

attribute [local irreducible] Host.reduceAdd in
set_option maxRecDepth 8192 in
/-- The first twenty-six operations leave the pooled rows: by computation, the fold unrolled, each operation deciding
    whether the buffer read is the one it writes, a typed reference's transport the identity at a literal buffer. The
    sums over the neighbours are kept folded: the equation never looks inside them. -/
theorem pooled_eq (V : Valuation τ sig (Elt F)) :
    after (ops.take 26) V (main_v14 : DevRef τ sig)
      = refPooled (V (main_arg1 : DevRef τ sig)) (V (main_arg2 : DevRef τ sig)) (V (main_arg3 : DevRef τ sig)) (V (main_arg4 : DevRef τ sig)) := by
  rfl

attribute [local irreducible] concatenate transpose in
/-- The next three — the join, the transposition, the contraction — leave the mixed rows, from whatever the pooled
    rows' buffer held. -/
theorem mixed_eq (W : Valuation τ sig (Elt F)) :
    after ((ops.drop 26).take 3) W (main_v17 : DevRef τ sig)
      = refMixed (W (main_arg0 : DevRef τ sig)) (W (main_v14 : DevRef τ sig)) (W (main_arg5 : DevRef τ sig)) := by
  rfl

attribute [local irreducible] Host.reduceAdd in
set_option maxRecDepth 8192 in
set_option maxHeartbeats 400000 in
/-- The last twenty-four leave the normalised rows, from whatever the mixed rows' buffer held. -/
theorem normalized_eq (W : Valuation τ sig (Elt F)) :
    after ((ops.drop 26).drop 3) W (main_v28 : DevRef τ sig)
      = refNormalized (W (main_v17 : DevRef τ sig)) (W (main_arg6 : DevRef τ sig)) := by
  rfl

/-- The first stretch writes none of the three arguments read after it. -/
theorem pooled_arg0 (V : Valuation τ sig (Elt F)) :
    after (ops.take 26) V (main_arg0 : DevRef τ sig) = V (main_arg0 : DevRef τ sig) := by
  rfl
@[inherit_doc pooled_arg0]
theorem pooled_arg5 (V : Valuation τ sig (Elt F)) :
    after (ops.take 26) V (main_arg5 : DevRef τ sig) = V (main_arg5 : DevRef τ sig) := by
  rfl
@[inherit_doc pooled_arg0]
theorem pooled_arg6 (V : Valuation τ sig (Elt F)) :
    after (ops.take 26) V (main_arg6 : DevRef τ sig) = V (main_arg6 : DevRef τ sig) := by
  rfl
/-- The second stretch does not write the last bias. -/
theorem mixed_arg6 (W : Valuation τ sig (Elt F)) :
    after ((ops.drop 26).take 3) W (main_arg6 : DevRef τ sig) = W (main_arg6 : DevRef τ sig) := by
  rfl

/-- What the result buffer holds after the whole line is the composed term: the three stretches one after the other,
    each reading what the one before left. -/
theorem out_eq (V : Valuation τ sig (Elt F)) :
    after ops V (main_v28 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_split 26 ops V, after_split 3 (ops.drop 26), normalized_eq, mixed_eq, pooled_eq, mixed_arg6, pooled_arg0,
    pooled_arg5, pooled_arg6]
  rfl

/-! No operation writes an argument's buffer: each argument keeps its contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-- From any memory with zero counters, every weakly fair execution of the entry function terminates with the result
    buffer at the composed term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v28).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.Result

end
-- ==== Proof.RefPooled.lean ====
import proofs.«135298_j88441966559451_1_alg».proof.Proof.RefTerm
import proofs.«135298_j88441966559451_1_alg».proof.Proof.NodeLayer
import proofs.«135298_j88441966559451_1_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Result

open Cert.ReferenceIdeal Cert.ReferenceIdeal.Gen Idealize.ShloMosaic Idealize.ShloMosaic.ValueIdx

/-! ## The first linear map: a contraction over the feature axis -/

/-- The left operand's index keeps the result's node coordinate. -/
theorem refPooled_affine_lhs_0 (i : S50000x32x128.Idx) (q : dot_S50000x32x128_S128x128_S50000x32x128_2_1_01_0_n_n.contr.Idx) :
    (dot_S50000x32x128_S128x128_S50000x32x128_2_1_01_0_n_n.lhsIdx i q 0).val = (i 0).val := by
  unfold DotDims.lhsIdx
  rw [dif_neg (show ¬(0 : Fin S50000x32x128.rank) ∈ dot_S50000x32x128_S128x128_S50000x32x128_2_1_01_0_n_n.lhsBatch by decide),
    dif_pos (show (0 : Fin S50000x32x128.rank) ∈ dot_S50000x32x128_S128x128_S50000x32x128_2_1_01_0_n_n.lhsNonContracting by decide)]
  rfl

/-- The left operand's index keeps the result's neighbour coordinate. -/
theorem refPooled_affine_lhs_1 (i : S50000x32x128.Idx) (q : dot_S50000x32x128_S128x128_S50000x32x128_2_1_01_0_n_n.contr.Idx) :
    (dot_S50000x32x128_S128x128_S50000x32x128_2_1_01_0_n_n.lhsIdx i q 1).val = (i 1).val := by
  unfold DotDims.lhsIdx
  rw [dif_neg (show ¬(1 : Fin S50000x32x128.rank) ∈ dot_S50000x32x128_S128x128_S50000x32x128_2_1_01_0_n_n.lhsBatch by decide),
    dif_pos (show (1 : Fin S50000x32x128.rank) ∈ dot_S50000x32x128_S128x128_S50000x32x128_2_1_01_0_n_n.lhsNonContracting by decide)]
  rfl

/-- The left operand's last coordinate is the summation index. -/
theorem refPooled_affine_lhs_2 (i : S50000x32x128.Idx) (q : dot_S50000x32x128_S128x128_S50000x32x128_2_1_01_0_n_n.contr.Idx) :
    (dot_S50000x32x128_S128x128_S50000x32x128_2_1_01_0_n_n.lhsIdx i q 2).val = (q ⟨0, by decide⟩).val :=
  dot_S50000x32x128_S128x128_S50000x32x128_2_1_01_0_n_n.lhsIdx_val_of_single rfl i q

/-- The right operand's row is the result's last coordinate. -/
theorem refPooled_affine_rhs_0 (i : S50000x32x128.Idx) (q : dot_S50000x32x128_S128x128_S50000x32x128_2_1_01_0_n_n.contr.Idx) :
    (dot_S50000x32x128_S128x128_S50000x32x128_2_1_01_0_n_n.rhsIdx i q 0).val = (i 2).val := by
  unfold DotDims.rhsIdx
  rw [dif_neg (show ¬(0 : Fin S128x128.rank) ∈ dot_S50000x32x128_S128x128_S50000x32x128_2_1_01_0_n_n.rhsBatch by decide),
    dif_pos (show (0 : Fin S128x128.rank) ∈ dot_S50000x32x128_S128x128_S50000x32x128_2_1_01_0_n_n.rhsNonContracting by decide)]
  rfl

/-- The right operand's column is the summation index. -/
theorem refPooled_affine_rhs_1 (i : S50000x32x128.Idx) (q : dot_S50000x32x128_S128x128_S50000x32x128_2_1_01_0_n_n.contr.Idx) :
    (dot_S50000x32x128_S128x128_S50000x32x128_2_1_01_0_n_n.rhsIdx i q 1).val = (q ⟨0, by decide⟩).val :=
  dot_S50000x32x128_S128x128_S50000x32x128_2_1_01_0_n_n.rhsIdx_val_of_single rfl i q

/-- The contraction at (n, k, h): neighbour k's feature row of node n against row h of the weight. -/
theorem refPooled_affine_apply (a1 : FVec Ideal S50000x32x128 .f32) (a3 : FVec Ideal S128x128 .f32)
    (n : Fin 50000) (k : Fin 32) (h : Fin 128) :
    Host.dotGeneral dot_S50000x32x128_S128x128_S50000x32x128_2_1_01_0_n_n none a1 a3 (ix3 n k h)
      = ∑ i : Fin 128, a1 (ix3 n k i) * a3 (ix2 h i) := by
  simp only [Host.dotGeneral]
  rw [Ideal.dotGeneral_apply, ← Equiv.sum_comp (ValueIdx.contrEquiv1 dot_S50000x32x128_S128x128_S50000x32x128_2_1_01_0_n_n 128 rfl rfl).symm]
  refine Finset.sum_congr rfl fun i _ => ?_
  have hi := ValueIdx.contrEquiv1_symm_val dot_S50000x32x128_S128x128_S50000x32x128_2_1_01_0_n_n 128 rfl rfl i
  have el : dot_S50000x32x128_S128x128_S50000x32x128_2_1_01_0_n_n.lhsIdx (ix3 n k h) ((ValueIdx.contrEquiv1 dot_S50000x32x128_S128x128_S50000x32x128_2_1_01_0_n_n 128 rfl rfl).symm i) = ix3 n k i :=
    funext fun a => Fin.ext (by
      match a with
      | ⟨0, _⟩ => exact refPooled_affine_lhs_0 _ _
      | ⟨1, _⟩ => exact refPooled_affine_lhs_1 _ _
      | ⟨2, _⟩ => exact (refPooled_affine_lhs_2 _ _).trans hi)
  have er : dot_S50000x32x128_S128x128_S50000x32x128_2_1_01_0_n_n.rhsIdx (ix3 n k h) ((ValueIdx.contrEquiv1 dot_S50000x32x128_S128x128_S50000x32x128_2_1_01_0_n_n 128 rfl rfl).symm i) = ix2 h i :=
    funext fun a => Fin.ext (by
      match a with
      | ⟨0, _⟩ => exact refPooled_affine_rhs_0 _ _
      | ⟨1, _⟩ => exact (refPooled_affine_rhs_1 _ _).trans hi)
  rw [el, er]

/-! ## The broadcasts -/

/-- The bias, laid along the last axis of [1,1,128] and then repeated over nodes and neighbours: at (n, k, h), the bias at h. -/
theorem refPooled_bias_apply (a4 : FVec Ideal S128 .f32) (n : Fin 50000) (k : Fin 32) (h : Fin 128) :
    broadcastInDim S50000x32x128 ![0, 1, 2] bcast_S1x1x128_S50000x32x128_0_1_2
        (broadcastInDim S1x1x128 ![2] bcast_S128_S1x1x128_2 a4) (ix3 n k h) = a4 (ix1 h) := by
  refine (broadcastInDim_apply _ _ _ (ix3 n k h) (ix3 (0 : Fin 1) (0 : Fin 1) h) fun a => ?_).trans
    (broadcastInDim_apply _ _ a4 (ix3 (0 : Fin 1) (0 : Fin 1) h) (ix1 h) fun a => ?_)
  · match a with
    | ⟨0, _⟩ => rfl
    | ⟨1, _⟩ => rfl
    | ⟨2, _⟩ => rfl
  · match a with
    | ⟨0, _⟩ => rfl

/-- The weights [50000,32,1] repeated along the last axis: at (n, k, h), neighbour k's weight. -/
theorem refPooled_weight_apply (a2 : FVec Ideal S50000x32x1 .f32) (n : Fin 50000) (k : Fin 32) (h : Fin 128) :
    broadcastInDim S50000x32x128 ![0, 1, 2] bcast_S50000x32x1_S50000x32x128_0_1_2 a2 (ix3 n k h)
      = a2 (ix3 n k (0 : Fin 1)) := by
  refine broadcastInDim_apply _ _ a2 (ix3 n k h) (ix3 n k (0 : Fin 1)) fun a => ?_
  match a with
  | ⟨0, _⟩ => rfl
  | ⟨1, _⟩ => rfl
  | ⟨2, _⟩ => rfl

/-- A column [50000,1] repeated along the rows' entries: at (n, h), the column at n. -/
theorem refPooled_column_apply (c : FVec Ideal S50000x1 .f32) (n : Fin 50000) (h : Fin 128) :
    broadcastInDim S50000x128 ![0, 1] bcast_S50000x1_S50000x128_0_1 c (ix2 n h) = c (ix2 n (0 : Fin 1)) := by
  refine broadcastInDim_apply _ _ c (ix2 n h) (ix2 n (0 : Fin 1)) fun a => ?_
  match a with
  | ⟨0, _⟩ => rfl
  | ⟨1, _⟩ => rfl

/-! ## The rectifier and the safe divisor, elementwise -/

/-- The rectifier's three operations at an index: the comparison with the broadcast zero, the product with the
    broadcast slope, and the choice between them. -/
theorem refPooled_rectifier_apply (x : FVec Ideal S50000x32x128 .f32) (j : S50000x32x128.Idx) :
    select (cmpf .oge x (broadcastInDim S50000x32x128 ![] bcast_S_S50000x32x128 (constant (F := Ideal) S_ .f32 0x00000000#32)))
        x (mulf (broadcastInDim S50000x32x128 ![] bcast_S_S50000x32x128 (id (constant (F := Ideal) S_ .f32 0x3C23D70A#32))) x) j
      = Cert.NodeLayer.leaky (x j) := rfl

/-- The divisor's four operations at an index: the comparison with the broadcast zero and the choice of the broadcast one. -/
theorem refPooled_safe_apply (s : FVec Ideal S50000x1 .f32) (j : S50000x1.Idx) :
    select (cmpf .oeq s (broadcastInDim S50000x1 ![] bcast_S_S50000x1 (constant (F := Ideal) S_ .f32 0x00000000#32)))
        (broadcastInDim S50000x1 ![] bcast_S_S50000x1 (constant (F := Ideal) S_ .f32 0x3F800000#32)) s j
      = Cert.NodeLayer.safeDen (s j) := rfl

/-! ## The sums over the neighbours -/

/-- The sum over the neighbour axis of a [50000,32,128] array from the zero constant: at (n, h), the plain sum over k. -/
theorem refPooled_neighbour_sum_apply (x : FVec Ideal S50000x32x128 .f32) (n : Fin 50000) (h : Fin 128) :
    Host.reduceAdd x (constant (F := Ideal) S_ .f32 0x00000000#32) reducesTo_S50000x32x128_S50000x128_d1 h_S_ (ix2 n h)
      = ∑ k : Fin 32, x (ix3 n k h) := by
  simp only [Host.reduceAdd, Ideal.hostReduceAdd_def]
  rw [Ideal.hostReduceAdd_single reducesTo_S50000x32x128_S50000x128_d1 (by decide)]
  refine (congrArg (· + _) ((constant_apply _ _).trans Ideal.ofBits_zero_f32)).trans ((zero_add _).trans ?_)
  refine Finset.sum_congr rfl fun k _ => ?_
  exact congrArg x (funext fun a => Fin.ext (by match a with | ⟨0, _⟩ => rfl | ⟨1, _⟩ => rfl | ⟨2, _⟩ => rfl))

/-- The same sum of the weights [50000,32,1]: at (n, 0), the plain sum of node n's weights. -/
theorem refPooled_weight_sum_apply (a2 : FVec Ideal S50000x32x1 .f32) (n : Fin 50000) :
    Host.reduceAdd a2 (constant (F := Ideal) S_ .f32 0x00000000#32) reducesTo_S50000x32x1_S50000x1_d1 h_S_ (ix2 n (0 : Fin 1))
      = ∑ k : Fin 32, a2 (ix3 n k (0 : Fin 1)) := by
  simp only [Host.reduceAdd, Ideal.hostReduceAdd_def]
  rw [Ideal.hostReduceAdd_single reducesTo_S50000x32x1_S50000x1_d1 (by decide)]
  refine (congrArg (· + _) ((constant_apply _ _).trans Ideal.ofBits_zero_f32)).trans ((zero_add _).trans ?_)
  refine Finset.sum_congr rfl fun k _ => ?_
  exact congrArg a2 (funext fun a => Fin.ext (by match a with | ⟨0, _⟩ => rfl | ⟨1, _⟩ => rfl | ⟨2, _⟩ => rfl))

/-! ## The stage read at (n, h) -/

theorem refPooled_apply (a1 : FVec Ideal S50000x32x128 .f32) (a2 : FVec Ideal S50000x32x1 .f32)
    (a3 : FVec Ideal S128x128 .f32) (a4 : FVec Ideal S128 .f32) (n : Fin 50000) (h : Fin 128) :
    refPooled a1 a2 a3 a4 (ix2 n h)
      = Cert.NodeLayer.pooled (fun k => a2 (ix3 n k (0 : Fin 1))) (fun k i => a1 (ix3 n k i))
          (fun h i => a3 (ix2 h i)) (fun h => a4 (ix1 h)) h := by
  unfold refPooled
  dsimp only
  refine (hostDivf_apply _ _ _).trans ?_
  unfold Cert.NodeLayer.pooled
  refine congrArg₂ Ideal.div ?_ ?_
  · -- the weighted sum of the hidden rows
    refine (refPooled_neighbour_sum_apply _ n h).trans (Finset.sum_congr rfl fun k _ => ?_)
    refine (mulf_apply _ _ _).trans (congrArg₂ (· * ·) (refPooled_weight_apply a2 n k h) ?_)
    refine (refPooled_rectifier_apply _ _).trans ?_
    unfold Cert.NodeLayer.hidden
    refine congrArg Cert.NodeLayer.leaky ((addf_apply _ _ _).trans ?_)
    exact congrArg₂ (· + ·) (refPooled_affine_apply a1 a3 n k h) (refPooled_bias_apply a4 n k h)
  · -- the sum of the weights, made safe
    refine (refPooled_column_apply _ n h).trans ((refPooled_safe_apply _ _).trans ?_)
    exact congrArg Cert.NodeLayer.safeDen (refPooled_weight_sum_apply a2 n)

end Cert.ReferenceIdeal.Result

end
-- ==== Proof.RefTail.lean ====
import proofs.«135298_j88441966559451_1_alg».proof.Proof.RefTerm
import proofs.«135298_j88441966559451_1_alg».proof.Proof.NodeLayer
import proofs.«135298_j88441966559451_1_alg».proof.Proof.LibKeepdims
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Result

open Cert.ReferenceIdeal Cert.ReferenceIdeal.Gen Idealize.ShloMosaic Idealize.ShloMosaic.ValueIdx

/-! ## The second linear map: a [50000, 256] by [256, 128] product read at (n, o) -/

/-- Row coordinate of the left operand's index: the output's row. -/
theorem mixed_lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

/-- Column coordinate of the left operand's index: the summation variable. -/
theorem mixed_lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q

/-- Row coordinate of the right operand's index: the summation variable. -/
theorem mixed_rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q

/-- Column coordinate of the right operand's index: the output's column. -/
theorem mixed_rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The product at (n, o): the sum over the 256 shared positions of row n of the left times column o of the right. -/
theorem mixed_dot_apply (x : FVec Ideal S50000x256 .f32) (y : FVec Ideal S256x128 .f32) (n : Fin 50000) (o : Fin 128) :
    Host.dotGeneral dot_S50000x256_S256x128_S50000x128_1_0_0_1_n_n none x y (ix2 n o)
      = ∑ k : Fin 256, x (ix2 n k) * y (ix2 k o) := by
  simp only [Host.dotGeneral]
  rw [Ideal.dotGeneral_apply,
    ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 n o)
      ((ValueIdx.contrEquiv1 dot_S50000x256_S256x128_S50000x128_1_0_0_1_n_n 256 rfl rfl).symm k) = ix2 n k :=
    funext fun a => Fin.ext (by
      match a with
      | ⟨0, _⟩ => exact mixed_lhs_0 _ _
      | ⟨1, _⟩ => exact (mixed_lhs_1 _ _).trans hk)
  have er : dot_S50000x256_S256x128_S50000x128_1_0_0_1_n_n.rhsIdx (ix2 n o)
      ((ValueIdx.contrEquiv1 dot_S50000x256_S256x128_S50000x128_1_0_0_1_n_n 256 rfl rfl).symm k) = ix2 k o :=
    funext fun a => Fin.ext (by
      match a with
      | ⟨0, _⟩ => exact (mixed_rhs_0 _ _).trans hk
      | ⟨1, _⟩ => exact mixed_rhs_1 _ _)
  rw [el, er]

/-- Two [50000, 128] arrays laid side by side, read at (n, j): the first at (n, j) for j below 128, else the second
    at (n, j - 128). -/
theorem mixed_concat_apply (a0 v14 : FVec Ideal S50000x128 .f32) (n : Fin 50000) (j : Fin 256) :
    concatenate S50000x256 1 [⟨S50000x128, a0⟩, ⟨S50000x128, v14⟩] concatenates_S50000x128_S50000x128_S50000x256_d1 (ix2 n j)
      = Cert.NodeLayer.joined (fun i => a0 (ix2 n i)) (fun h => v14 (ix2 n h)) j := by
  unfold Cert.NodeLayer.joined
  by_cases h : j.val < 128
  · rw [dif_pos h]
    refine concatenate_pair_apply_left (1 : Fin S50000x256.rank) a0 v14 _ (ix2 n j) rfl (ix2 n ⟨j.val, h⟩) fun b => ?_
    match b with
    | ⟨0, _⟩ => rfl
    | ⟨1, _⟩ => rfl
  · rw [dif_neg h]
    have hj := j.isLt
    refine concatenate_pair_apply_right (1 : Fin S50000x256.rank) a0 v14 _ (ix2 n j) rfl rfl
      (ix2 n ⟨j.val - 128, by omega⟩) (fun b hb => ?_) ?_
    · match b with
      | ⟨0, _⟩ => rfl
      | ⟨1, _⟩ => exact absurd rfl hb
    · show (j.val - 128) + 128 = j.val
      omega

theorem refMixed_apply (a0 v14 : FVec Ideal S50000x128 .f32) (a5 : FVec Ideal S128x256 .f32)
    (n : Fin 50000) (o : Fin 128) :
    refMixed a0 v14 a5 (ix2 n o)
      = Cert.NodeLayer.mixed (Cert.NodeLayer.joined (fun i => a0 (ix2 n i)) (fun h => v14 (ix2 n h)))
          (fun o j => a5 (ix2 o j)) o := by
  unfold refMixed Cert.NodeLayer.mixed
  dsimp only
  refine (mixed_dot_apply _ _ n o).trans (Finset.sum_congr rfl fun j _ => ?_)
  rw [mixed_concat_apply, transpose_ix2_apply]

/-! ## Bias, rectifier and row normalisation read at (n, o) -/

/-- The bias [128] as a row [1, 128] spread down the 50000 rows: at (n, q), the bias at q. -/
theorem norm_bias_apply (a6 : FVec Ideal S128 .f32) (n : Fin 50000) (q : Fin 128) :
    broadcastInDim S50000x128 ![0, 1] bcast_S1x128_S50000x128_0_1
        (broadcastInDim S1x128 ![1] bcast_S128_S1x128_1 a6) (ix2 n q) = a6 (ix1 q) := by
  refine (broadcastInDim_apply _ bcast_S1x128_S50000x128_0_1 _ (ix2 n q) (ix2 (0 : Fin 1) q) fun a => ?_).trans
    (broadcastInDim_apply _ bcast_S128_S1x128_1 a6 (ix2 (0 : Fin 1) q) (ix1 q) fun a => ?_)
  · match a with
    | ⟨0, _⟩ => rfl
    | ⟨1, _⟩ => rfl
  · match a with
    | ⟨0, _⟩ => rfl

/-- The rectifier with its two scalar constants spread over the array, at an index: the scalar rectifier there. -/
theorem norm_leaky_apply (x : FVec Ideal S50000x128 .f32) (i : S50000x128.Idx) :
    select (cmpf .oge x (broadcastInDim S50000x128 ![] bcast_S_S50000x128 (constant (F := Ideal) S_ .f32 0x00000000#32))) x
        (mulf (broadcastInDim S50000x128 ![] bcast_S_S50000x128 (id (constant (F := Ideal) S_ .f32 0x3C23D70A#32))) x) i
      = Cert.NodeLayer.leaky (x i) := by
  unfold Cert.NodeLayer.leaky
  rw [select_apply, cmpf_apply, mulf_apply, broadcastInDim_scalar_apply, broadcastInDim_scalar_apply]
  rfl

/-- The divisor made safe, its two scalar constants spread over the column, at an index. -/
theorem norm_safe_apply (s : FVec Ideal S50000x1 .f32) (i : S50000x1.Idx) :
    select (cmpf .oeq s (broadcastInDim S50000x1 ![] bcast_S_S50000x1 (constant (F := Ideal) S_ .f32 0x00000000#32)))
        (broadcastInDim S50000x1 ![] bcast_S_S50000x1 (constant (F := Ideal) S_ .f32 0x3F800000#32)) s i
      = Cert.NodeLayer.safeDen (s i) := by
  unfold Cert.NodeLayer.safeDen
  rw [select_apply, cmpf_apply, broadcastInDim_scalar_apply, broadcastInDim_scalar_apply]
  rfl

/-- The sum along each row of a [50000, 128] array from zero, at row n: the plain sum of the row. -/
theorem norm_rowsum_apply (x : FVec Ideal S50000x128 .f32) (n : Fin 50000) :
    Host.reduceAdd x (constant (F := Ideal) S_ .f32 0x00000000#32) reducesTo_S50000x128_S50000_d1 h_S_ (ix1 n)
      = ∑ k : Fin 128, x (ix2 n k) := by
  simp only [Host.reduceAdd, Ideal.hostReduceAdd_def]
  rw [Ideal.hostReduceAdd_single reducesTo_S50000x128_S50000_d1 (by decide), constant_apply, Ideal.ofBits_zero_f32, zero_add]
  exact Finset.sum_congr rfl fun k _ => congrArg x
    (funext fun a => Fin.ext (by match a with | ⟨0, _⟩ => rfl | ⟨1, _⟩ => rfl))

/-- A vector [50000] as a column [50000, 1]: at (n, 0), the vector at n. -/
theorem norm_col_apply (v : FVec Ideal S50000 .f32) (n : Fin 50000) :
    broadcastInDim S50000x1 ![0] bcast_S50000_S50000x1_0 v (ix2 n (0 : Fin 1)) = v (ix1 n) := by
  refine broadcastInDim_apply _ bcast_S50000_S50000x1_0 v _ (ix1 n) fun a => ?_
  match a with
  | ⟨0, _⟩ => rfl

/-- A column [50000, 1] spread across 128 columns: at (n, o), the column at (n, 0). -/
theorem norm_spread_apply (w : FVec Ideal S50000x1 .f32) (n : Fin 50000) (o : Fin 128) :
    broadcastInDim S50000x128 ![0, 1] bcast_S50000x1_S50000x128_0_1 w (ix2 n o) = w (ix2 n (0 : Fin 1)) := by
  refine broadcastInDim_apply _ bcast_S50000x1_S50000x128_0_1 w _ (ix2 n (0 : Fin 1)) fun a => ?_
  match a with
  | ⟨0, _⟩ => rfl
  | ⟨1, _⟩ => rfl

/-- The host's quotient at an index: the extended reals' quotient of the two entries. -/
theorem norm_divf_apply {s : Shape} (a b : FVec Ideal s .f32) (i : s.Idx) :
    Host.divf a b i = Ideal.div (a i) (b i) := rfl

/-- The host's square root at an index: the extended reals' square root of the entry. -/
theorem norm_sqrt_apply {s : Shape} (a : FVec Ideal s .f32) (i : s.Idx) :
    Host.sqrt a i = Ideal.sqrt (a i) := rfl

/-- The bias added and the rectifier applied, at (n, q): the activated row of node n at q. -/
theorem norm_act_apply (v17 : FVec Ideal S50000x128 .f32) (a6 : FVec Ideal S128 .f32) (n : Fin 50000) (q : Fin 128) :
    select
        (cmpf .oge
          (addf v17 (broadcastInDim S50000x128 ![0, 1] bcast_S1x128_S50000x128_0_1
            (broadcastInDim S1x128 ![1] bcast_S128_S1x128_1 a6)))
          (broadcastInDim S50000x128 ![] bcast_S_S50000x128 (constant (F := Ideal) S_ .f32 0x00000000#32)))
        (addf v17 (broadcastInDim S50000x128 ![0, 1] bcast_S1x128_S50000x128_0_1
          (broadcastInDim S1x128 ![1] bcast_S128_S1x128_1 a6)))
        (mulf (broadcastInDim S50000x128 ![] bcast_S_S50000x128 (id (constant (F := Ideal) S_ .f32 0x3C23D70A#32)))
          (addf v17 (broadcastInDim S50000x128 ![0, 1] bcast_S1x128_S50000x128_0_1
            (broadcastInDim S1x128 ![1] bcast_S128_S1x128_1 a6)))) (ix2 n q)
      = Cert.NodeLayer.activated (fun o => v17 (ix2 n o)) (fun o => a6 (ix1 o)) q := by
  refine (norm_leaky_apply _ _).trans ?_
  unfold Cert.NodeLayer.activated
  rw [addf_apply, norm_bias_apply]

/-- Any [50000, 128] array divided by its rows' Euclidean norms made safe, at (n, o). -/
theorem norm_tail_apply (y : FVec Ideal S50000x128 .f32) (n : Fin 50000) (o : Fin 128) :
    Host.divf y
        (broadcastInDim S50000x128 ![0, 1] bcast_S50000x1_S50000x128_0_1
          (select
            (cmpf .oeq
              (Host.sqrt (broadcastInDim S50000x1 ![0] bcast_S50000_S50000x1_0
                (Host.reduceAdd (mulf y y) (constant (F := Ideal) S_ .f32 0x00000000#32) reducesTo_S50000x128_S50000_d1 h_S_)))
              (broadcastInDim S50000x1 ![] bcast_S_S50000x1 (constant (F := Ideal) S_ .f32 0x00000000#32)))
            (broadcastInDim S50000x1 ![] bcast_S_S50000x1 (constant (F := Ideal) S_ .f32 0x3F800000#32))
            (Host.sqrt (broadcastInDim S50000x1 ![0] bcast_S50000_S50000x1_0
              (Host.reduceAdd (mulf y y) (constant (F := Ideal) S_ .f32 0x00000000#32) reducesTo_S50000x128_S50000_d1 h_S_)))))
        (ix2 n o)
      = Ideal.div (y (ix2 n o))
          (Cert.NodeLayer.safeDen (Ideal.sqrt (∑ k : Fin 128, y (ix2 n k) * y (ix2 n k)))) := by
  rw [norm_divf_apply, norm_spread_apply, norm_safe_apply, norm_sqrt_apply, norm_col_apply, norm_rowsum_apply]
  rfl

theorem refNormalized_apply (v17 : FVec Ideal S50000x128 .f32) (a6 : FVec Ideal S128 .f32)
    (n : Fin 50000) (o : Fin 128) :
    refNormalized v17 a6 (ix2 n o)
      = Cert.NodeLayer.normalized (fun o => v17 (ix2 n o)) (fun o => a6 (ix1 o)) o := by
  unfold refNormalized Cert.NodeLayer.normalized
  dsimp only
  refine (norm_tail_apply _ n o).trans ?_
  rw [norm_act_apply]
  refine congrArg (fun s => Ideal.div _ (Cert.NodeLayer.safeDen (Ideal.sqrt s))) (Finset.sum_congr rfl fun k _ => ?_)
  rw [norm_act_apply]

end Cert.ReferenceIdeal.Result

end
-- ==== Proof.RefValue.lean ====
import proofs.«135298_j88441966559451_1_alg».proof.Proof.RefTerm
import proofs.«135298_j88441966559451_1_alg».proof.Proof.RefPooled
import proofs.«135298_j88441966559451_1_alg».proof.Proof.RefTail
import proofs.«135298_j88441966559451_1_alg».proof.Proof.Whole
import Idealize.ShloMosaic.Lib.ValueIdx

noncomputable section

namespace Cert.ReferenceIdeal.Result

open Cert.ReferenceIdeal Cert.ReferenceIdeal.Gen Idealize.ShloMosaic Idealize.ShloMosaic.ValueIdx

/-- The reference's result is the layer of its seven arguments: at row n its three stages, read index by index,
    are the three stages of one node's output row. -/
theorem refTerm_eq (a0 : FVec Ideal S50000x128 .f32) (a1 : FVec Ideal S50000x32x128 .f32)
    (a2 : FVec Ideal S50000x32x1 .f32) (a3 : FVec Ideal S128x128 .f32) (a4 : FVec Ideal S128 .f32)
    (a5 : FVec Ideal S128x256 .f32) (a6 : FVec Ideal S128 .f32) :
    refTerm a0 a1 a2 a3 a4 a5 a6 = Cert.NodeLayer.wholeOut a0 a1 a2 a3 a4 a5 a6 := by
  funext i
  obtain ⟨n, o, rfl⟩ : ∃ (n : Fin 50000) (o : Fin 128), i = ix2 n o := ⟨i 0, i 1, eq_ix2 i⟩
  rw [Cert.NodeLayer.wholeOut_ix2]
  unfold refTerm Cert.NodeLayer.rowOut Cert.NodeLayer.out
  rw [refNormalized_apply]
  simp only [refMixed_apply, refPooled_apply]

end Cert.ReferenceIdeal.Result

end
-- ==== Proof.lean ====
/-
  The kernel computes, for each of 50000 nodes, one layer of neighbourhood aggregation: every neighbour's feature row
  through an affine map and a leaky rectifier, the weighted average of those rows over the 32 neighbours (a zero
  weight sum replaced by one), the node's own row joined with that average through a second affine map and the
  rectifier, and the resulting row divided by its Euclidean norm (a zero norm replaced by one). It does so block by
  block, 400 nodes at a time, on flattened [12800, 128] rows and with both matrix products taken on values cast to a
  shorter format; the reference does the same on whole arrays with one contraction per product.

  Over the extended reals a change of format is the identity, a matrix product into a zero accumulator and a
  contraction are the same finite sum, and a lane reduction and a host reduction from zero are the same finite sum;
  so both programs compute, at row n and entry o, the one function `NodeLayer.out` of row n's data (NodeLayer.lean).
  The kernel side: what one grid point writes back is that function on the point's blocks (KernelPooled.lean,
  KernelTail.lean, read through the blocks in KernelValue.lean), and the 125 blocks tile the output. The reference
  side: its run ends at the composed term of its operations (RefRun.lean), which is that function stage by stage
  (RefPooled.lean, RefTail.lean, RefValue.lean). No law used here needs the inputs to be finite.
-/
import proofs.«135298_j88441966559451_1_alg».proof.Defs
import proofs.«135298_j88441966559451_1_alg».proof.Proof.Gen.Kernel
import proofs.«135298_j88441966559451_1_alg».proof.Proof.Gen.Kernel.Skeleton
import proofs.«135298_j88441966559451_1_alg».proof.Proof.Gen.Kernel.Launch
import proofs.«135298_j88441966559451_1_alg».proof.Proof.Gen.Kernel.Points
import proofs.«135298_j88441966559451_1_alg».proof.Proof.Gen.Kernel.Frame
import proofs.«135298_j88441966559451_1_alg».proof.Proof.Gen.KernelIdeal
import proofs.«135298_j88441966559451_1_alg».proof.Proof.Gen.KernelIdeal.Skeleton
import proofs.«135298_j88441966559451_1_alg».proof.Proof.Gen.KernelIdeal.Launch
import proofs.«135298_j88441966559451_1_alg».proof.Proof.Gen.KernelIdeal.Points
import proofs.«135298_j88441966559451_1_alg».proof.Proof.Gen.KernelIdeal.Frame
import proofs.«135298_j88441966559451_1_alg».proof.Proof.Gen.KernelIdeal.Value
import proofs.«135298_j88441966559451_1_alg».proof.Proof.Gen.ReferenceIdeal
import proofs.«135298_j88441966559451_1_alg».proof.Proof.Gen.Pre_finite_inputs
import proofs.«135298_j88441966559451_1_alg».proof.Proof.KernelValue
import proofs.«135298_j88441966559451_1_alg».proof.Proof.RefRun
import proofs.«135298_j88441966559451_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Result.run (F := Ideal) m ρ)

/-- From memories that agree on the seven arguments both programs end with the output array at the layer of those
    arguments: the kernel's blocks tile it, and the reference's composed term is it. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Result.run (F := Ideal) m' ρ')
  obtain ⟨h0, h1, h2, h3, h4, h5, h6⟩ := hagree c
  rw [h0, h1, h2, h3, h4, h5, h6]
  exact Cert.ReferenceIdeal.Result.refTerm_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
